-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192x2048 .f32) (main_arg5 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x1x2048 : Shape := ⟨3, ![4, 1, 2048]⟩
abbrev S256x256 : Shape := ⟨2, ![256, 256]⟩
abbrev S256x2048 : Shape := ⟨2, ![256, 2048]⟩
abbrev S2048x256 : Shape := ⟨2, ![2048, 256]⟩
abbrev S1x1x2048 : Shape := ⟨3, ![1, 1, 2048]⟩
abbrev S4x256x2048 : Shape := ⟨3, ![4, 256, 2048]⟩
abbrev S1x256x2048 : Shape := ⟨3, ![1, 256, 2048]⟩
abbrev S1x2048 : Shape := ⟨2, ![1, 2048]⟩

abbrev nBuf : Space → Nat
  | .hbm => 11
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S4x1x2048, .f32⟩
  | .hbm, ⟨7, _⟩ => ⟨S8192x2048, .bf16⟩
  | .hbm, ⟨8, _⟩ => ⟨S8192x2048, .bf16⟩
  | .hbm, ⟨9, _⟩ => ⟨S4096x2048, .f32⟩
  | .hbm, ⟨10, _⟩ => ⟨S4096x2048, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x2048, .f32⟩
  | .local _ .vmem, ⟨5, _⟩ => ⟨S256x2048, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S4x256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v33 : Index := Scalar.indexCast arg1
  let c0_17 : Index := 0#32
  let c0_18 : Index := 0#32
  ![v33.toNat, 0, 0]
def k0_off2 (i : grid0.Coords) : Fin 3 → Nat :=
  let arg1 : BitVec 32 := BitVec.ofNat 32 (i 1).val
  let v15 : Index := Scalar.indexCast arg1
  let c0_9 : Index := 0#32
  let c0_10 : Index := 0#32
  ![v15.toNat, 0, 0]
def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_13 : BitVec 32 := 0#32
  let v26 : BitVec 1 := Scalar.cmpi .ne v25 c0_i32_13
  v26

def k0_off3 (i : grid0.Coords) : Fin 3 → Nat :=
  let arg1 : BitVec 32 := BitVec.ofNat 32 (i 1).val
  let v32 : Index := Scalar.indexCast arg1
  let c0_16 : Index := 0#32
  let c0_17 : Index := 0#32
  ![v32.toNat, 0, 0]
def k0_cond3 (i : grid0.Coords) : BitVec 1 :=
  let arg2 : BitVec 32 := BitVec.ofNat 32 (i 2).val
  let c7_i32_14 : BitVec 32 := 7#32
  let v27 : BitVec 1 := Scalar.cmpi .eq arg2 c7_i32_14
  let arg1 : BitVec 32 := BitVec.ofNat 32 (i 1).val
  let c3_i32 : BitVec 32 := 3#32
  let v28 : BitVec 1 := Scalar.cmpi .eq arg1 c3_i32
  let v29 : BitVec 1 := Scalar.andi v27 v28
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

class Facts₀ : Prop where
  shapeCasts_S8192_S4x1x2048 : S8192.ShapeCasts S4x1x2048
  bitsLt_bf16_f32 : FTy.bits .bf16 < FTy.bits .f32
  h_S1x256x2048 : 0 < S1x256x2048.numel
  shapeCasts_S1x256x2048_S256x2048 : S1x256x2048.ShapeCasts S256x2048
  shapeCasts_S256x2048_S1x256x2048 : S256x2048.ShapeCasts S1x256x2048
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  inb_S4x256x2048_S1x256x2048_0_0_0 : ∀ a, (![0, 0, 0] : Fin 3 → Nat) a + S1x256x2048.size a ≤ S4x256x2048.size a
  inb_S4x256x2048_S1x256x2048_1_0_0 : ∀ a, (![1, 0, 0] : Fin 3 → Nat) a + S1x256x2048.size a ≤ S4x256x2048.size a
  inb_S4x256x2048_S1x256x2048_2_0_0 : ∀ a, (![2, 0, 0] : Fin 3 → Nat) a + S1x256x2048.size a ≤ S4x256x2048.size a
  inb_S4x256x2048_S1x256x2048_3_0_0 : ∀ a, (![3, 0, 0] : Fin 3 → Nat) a + S1x256x2048.size a ≤ S4x256x2048.size a
  inb_S256x2048_S256x2048_0_0 : ∀ a, (![0, 0] : Fin 2 → Nat) a + S256x2048.size a ≤ S256x2048.size a
  h_S256x2048 : 0 < S256x2048.numel
  dot_S256x256_S256x2048_S256x2048_1_0_0_1_n_n_wf : DotDims.WF S256x256 S256x2048 S256x2048 [1] [0] [0] [1] [] []
  hrank0 : 0 < grid0.rank
  k0_off1_inb : ∀ i : grid0.Coords, ∀ (k0_h1 : k0_cond1 i = 1#1), ∀ a, (k0_off1 i) a + S1x256x2048.size a ≤ S4x256x2048.size a
  k0_off2_inb : ∀ i : grid0.Coords, ∀ a, (k0_off2 i) a + S1x256x2048.size a ≤ S4x256x2048.size a
  k0_off3_inb : ∀ i : grid0.Coords, ∀ (k0_h2 : k0_cond2 i = 1#1), ∀ a, (k0_off3 i) a + S1x256x2048.size a ≤ S4x256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x2048.size a
  hwx0_0 : ∀ i : grid0.Coords, EltTy.bits .f32 = 32 ∨ (Rect.block (s := S4096x2048) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x2048.size a
  hwx0_1 : ∀ i : grid0.Coords, EltTy.bits .f32 = 32 ∨ (Rect.block (s := S4096x2048) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x2048.size a
  hwx0_3 : ∀ i : grid0.Coords, EltTy.bits .bf16 = 32 ∨ (Rect.block (s := S8192x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x2048.size a
  hwx0_4 : ∀ i : grid0.Coords, EltTy.bits .bf16 = 32 ∨ (Rect.block (s := S8192x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S4x1x2048.size a
  hwx0_5 : ∀ i : grid0.Coords, EltTy.bits .f32 = 32 ∨ (Rect.block (s := S4x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S4096x8192, .f32⟩
  | .hbm, ⟨7, _⟩ => ⟨S4096x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_cst_3 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_cst_7 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_9 : Ref sig .tc := ⟨.hbm, 55, rfl⟩
abbrev main_v24 : Ref sig .tc := ⟨.hbm, 56, rfl⟩
abbrev main_v25 : Ref sig .tc := ⟨.hbm, 57, rfl⟩
abbrev main_cst_10 : Ref sig .tc := ⟨.hbm, 58, rfl⟩
abbrev main_v26 : Ref sig .tc := ⟨.hbm, 59, rfl⟩
abbrev main_v27 : Ref sig .tc := ⟨.hbm, 60, rfl⟩
abbrev main_cst_11 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v28 : Ref sig .tc := ⟨.hbm, 68, rfl⟩
abbrev main_cst_13 : Ref sig .tc := ⟨.hbm, 69, rfl⟩
abbrev main_cst_14 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v29 : Ref sig .tc := ⟨.hbm, 76, rfl⟩
abbrev main_v30 : Ref sig .tc := ⟨.hbm, 77, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.KI.State.lean ====
/-
  What the kernel keeps in its scratch between grid points, and the proof data of its one pipeline.

  The grid is (batch tile, gate, reduction tile) = 16 × 4 × 8, walked in that order: point `n` is batch tile
  `n / 32`, gate `(n / 8) % 4`, reduction tile `n % 8`. The scratch has one slot per gate. At point `n` the body
  adds the two partial matrix products of the point's input blocks to the slot of the point's gate — over zero when
  the reduction tile is the first, over what the slot held otherwise — and adds the gate's bias row when the
  reduction tile is the last (`slotStep`). `slotAt n g` is what slot `g` holds after point `n` (meaningful once the
  slot has been started, that is from point `8 · g` on). At the last point of a batch tile all four slots hold
  that tile's complete pre-activations, and the body stores the new cell state (`cellOut`) and the new hidden
  state (`hidOut`) computed from them and from the tile's block of the old cell state.
-/
import proofs.«168793_j10007273800256_1_alg».proof.Proof.Gen.KernelIdeal.Frame
import proofs.«168793_j10007273800256_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch slots, point by point -/

/-- What point `n` leaves in the slot of its gate, the slot holding `prev` when the point starts: the two partial
    products of the point's blocks added to zero (first reduction tile) or to `prev`, then the bias row added at the
    last reduction tile. -/
def slotStep (c : Dev nD) (n : ℕ) (hn : n < cfg0.N) (prev : Vec F S1x256x2048 .f32) : Vec F S1x256x2048 .f32 :=
  if n % 8 = 7 then
    k0_pay5 (k0_pay4 (iblk m c 0 ⟨n, hn⟩) (iblk m c 1 ⟨n, hn⟩) (iblk m c 3 ⟨n, hn⟩) (iblk m c 4 ⟨n, hn⟩)
      (if n % 8 = 0 then k0_pay3 else prev)) (iblk m c 5 ⟨n, hn⟩)
  else
    k0_pay4 (iblk m c 0 ⟨n, hn⟩) (iblk m c 1 ⟨n, hn⟩) (iblk m c 3 ⟨n, hn⟩) (iblk m c 4 ⟨n, hn⟩)
      (if n % 8 = 0 then k0_pay3 else prev)

/-- What slot `g` of the scratch holds after point `n`: the point's step over what the point before left when `g` is
    the point's gate, what the point before left otherwise. (Before a slot's first reset the value is of no
    consequence; the recursion starts every slot at the first point's step.) -/
def slotAt (c : Dev nD) : (n : ℕ) → n < cfg0.N → Fin 4 → Vec F S1x256x2048 .f32
  | 0, hn, _ => slotStep m c 0 hn k0_pay3
  | n + 1, hn, g =>
    if (n + 1) / 8 % 4 = g.val then slotStep m c (n + 1) hn (slotAt c n (Nat.lt_of_succ_lt hn) g)
    else slotAt c n (Nat.lt_of_succ_lt hn) g

theorem slotAt_zero (c : Dev nD) (hn : 0 < cfg0.N) (g : Fin 4) : slotAt m c 0 hn g = slotStep m c 0 hn k0_pay3 := rfl

theorem slotAt_succ_hit (c : Dev nD) (n : ℕ) (hn : n + 1 < cfg0.N) (g : Fin 4) (hg : (n + 1) / 8 % 4 = g.val) :
    slotAt m c (n + 1) hn g = slotStep m c (n + 1) hn (slotAt m c n (Nat.lt_of_succ_lt hn) g) := by
  show (if (n + 1) / 8 % 4 = g.val then _ else _) = _
  rw [if_pos hg]

theorem slotAt_succ_miss (c : Dev nD) (n : ℕ) (hn : n + 1 < cfg0.N) (g : Fin 4) (hg : ¬ (n + 1) / 8 % 4 = g.val) :
    slotAt m c (n + 1) hn g = slotAt m c n (Nat.lt_of_succ_lt hn) g := by
  show (if (n + 1) / 8 % 4 = g.val then _ else _) = _
  rw [if_neg hg]

/-- The new cell state's block as the body computes it at point `n` from the four slots and the old cell state's block. -/
def cellOut (c : Dev nD) (n : ℕ) (hn : n < cfg0.N) : Vec F S256x2048 .f32 :=
  k0_pay1 (slotAt m c n hn 0) (slotAt m c n hn 1) (slotAt m c n hn 3) (iblk m c 2 ⟨n, hn⟩)

/-- The new hidden state's block as the body computes it at point `n`. -/
def hidOut (c : Dev nD) (n : ℕ) (hn : n < cfg0.N) : Vec F S256x2048 .f32 :=
  k0_pay6 (cellOut m c n hn) (k0_pay2 (slotAt m c n hn 2)) (Scalar.ofBits .f32 0x3F000000#32)

/-! ## The scratch as a memref, and its slots as rectangles -/

/-- The scratch operand: a whole scoped buffer of the kernel's own. -/
abbrev scM : Memref sig .tc .vmem S4x256x2048 .f32 := Memref.whole cc0_scratch0

theorem slot_inb (g : Fin 4) : ∀ a, (![g.val, 0, 0] : Fin 3 → ℕ) a + S1x256x2048.size a ≤ S4x256x2048.size a := by
  intro a
  match a with
  | ⟨0, _⟩ => show g.val + 1 ≤ 4; omega
  | ⟨1, _⟩ => show 0 + 256 ≤ 256; omega
  | ⟨2, _⟩ => show 0 + 2048 ≤ 2048; omega

/-- Slot `g` of the scratch: its `g`-th 256 × 2048 plane. -/
abbrev slotRect (g : Fin 4) : Rect S4x256x2048 := Rect.unit (s := S4x256x2048) ![g.val, 0, 0] S1x256x2048.size (slot_inb g)

/-- The scratch's contents `d` agree with the recursion after point `n` on every slot started by then. -/
def ScrInv (c : Dev nD) (n : ℕ) (hn : n < cfg0.N) (d : Vec F S4x256x2048 .f32) : Prop :=
  ∀ g : Fin 4, g.val * 8 ≤ n → View.ld d (slotRect g) = slotAt m c n hn g

/-- The region invariant before position `n`: before the first point the class's (the scratch at anything); afterwards
    the scratch at contents that agree with the recursion on the slots started so far, and the generator register at
    some state. -/
def PhiS (c : Dev nD) : (n : ℕ) → n ≤ cfg0.N → sProp 𝕄
  | 0, _ => Pipeline.ΦA spec0 c
  | n + 1, hn => iprop(iprop(∃ d, ⌜ScrInv m c n hn d⌝ ∗ owns (c : Thread nD τ) scM fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, ⌜ScrInv m c n hn d⌝ ∗ owns (c : Thread nD τ) scM fullShare d) ∗ (∃ r, prngReg c r)) := rfl

theorem PhiS_pos (c : Dev nD) (n : ℕ) (h : n ≤ cfg0.N) (hz : n ≠ 0) :
    PhiS m c n h = iprop(iprop(∃ d, ⌜ScrInv m c (n - 1) (by omega) d⌝ ∗ owns (c : Thread nD τ) scM fullShare d) ∗ (∃ r, prngReg c r)) := by
  cases n with
  | zero => exact absurd rfl hz
  | succ n => rfl

/-- The class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The pipeline's proof data -/

/-- The proof data of the one pipeline on core `c`: the arrays as the region finds them; after the body at point `t`
    each input's buffer at its block, the two outputs' at the hidden and cell blocks the recursion gives; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidOut m c t.val t.isLt
    | ⟨7, _⟩ => cellOut m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hidOut m c t.val t.isLt := by dsimp only [dats]
theorem after0_7 (c : Dev nD) (t : Fin cfg0.N) : (dats m 0 c).after 7 t = cellOut m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Hand

end
-- ==== Proof.KI.Scratch.lean ====
/-
  Reading the scratch one slot at a time after a store into one slot, and the grid's arithmetic: which gate a point
  belongs to (the offset of its slot), which of the body's three branches it takes, and where the two output windows
  are idle.
-/
import proofs.«168793_j10007273800256_1_alg».proof.Proof.KI.State
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One slot of the scratch after a store into a slot -/

/-- The index of a slot's element in the whole scratch: the slot's number, then the element's row and column. -/
theorem slot_idx_val (g : Fin 4) (x : (slotRect g).shape.Idx) (a : Fin 3) :
    (((slotRect g).idx x) a).val = (![g.val, 0, 0] : Fin 3 → ℕ) a + (x a).val := by
  show (![g.val, 0, 0] : Fin 3 → ℕ) a + 1 * (x a).val = _
  rw [Nat.one_mul]

/-- An element of slot `g` reads, after a newest store into slot `g`, that store's value at the element. -/
theorem read_slot_hit (f : scM.view.ty.Contents (Elt F)) {off : Fin 3 → ℕ}
    (inb : ∀ a, off a + S1x256x2048.size a ≤ S4x256x2048.size a)
    (w : (Rect.unit (s := S4x256x2048) off S1x256x2048.size inb).shape.Idx → Elt F .f32)
    (L : List (View.Piece (Elt F) S4x256x2048 .f32)) (g : Fin 4) (hoff : off = ![g.val, 0, 0])
    (x : (slotRect g).shape.Idx) :
    scM.view.read (Elt F) (scM.view.writes (Elt F) f ((⟨Rect.unit (s := S4x256x2048) off S1x256x2048.size inb, w⟩ : View.Piece (Elt F) S4x256x2048 .f32) :: L))
      ((slotRect g).idx x) = w x :=
  View.read_writes_cons_unit_of_mem scM.view f inb w L ((slotRect g).idx x) x hoff (fun a => slot_idx_val g x a)

/-- An element of another slot reads what the earlier stores left. -/
theorem read_slot_miss (f : scM.view.ty.Contents (Elt F)) {off : Fin 3 → ℕ}
    (inb : ∀ a, off a + S1x256x2048.size a ≤ S4x256x2048.size a)
    (w : (Rect.unit (s := S4x256x2048) off S1x256x2048.size inb).shape.Idx → Elt F .f32)
    (L : List (View.Piece (Elt F) S4x256x2048 .f32)) (g g' : Fin 4) (hoff : off = ![g.val, 0, 0]) (hne : g'.val ≠ g.val)
    (x : (slotRect g').shape.Idx) :
    scM.view.read (Elt F) (scM.view.writes (Elt F) f ((⟨Rect.unit (s := S4x256x2048) off S1x256x2048.size inb, w⟩ : View.Piece (Elt F) S4x256x2048 .f32) :: L))
      ((slotRect g').idx x)
      = scM.view.read (Elt F) (scM.view.writes (Elt F) f L) ((slotRect g').idx x) :=
  View.read_writes_cons_unit_of_not_mem scM.view f inb w L ((slotRect g').idx x) hoff (0 : Fin 3) (by
    have h0 := slot_idx_val g' x (0 : Fin 3)
    have hx : (x (0 : Fin 3)).val < 1 := (x (0 : Fin 3)).isLt
    have e0 : (![g'.val, 0, 0] : Fin 3 → ℕ) (0 : Fin 3) = g'.val := rfl
    have e1 : (![g.val, 0, 0] : Fin 3 → ℕ) (0 : Fin 3) = g.val := rfl
    have e2 : S1x256x2048.size (0 : Fin 3) = 1 := rfl
    rw [e0] at h0
    rw [h0, e1, e2]
    omega)

/-- Before any store the scratch reads as its contents. -/
theorem read_slot_nil (d : Vec F S4x256x2048 .f32) (y : S4x256x2048.Idx) :
    scM.view.read (Elt F) (scM.view.writes (Elt F) ((Memref.isWhole_whole cc0_scratch0).unread d) []) y = d y := by
  rw [View.writes_nil, (Memref.isWhole_whole cc0_scratch0).read_unread]

/-- A load through a slot-sized rectangle whose offsets are slot `g`'s reads slot `g`. -/
theorem ld_slot_eq (d : Vec F S4x256x2048 .f32) {off : Fin 3 → ℕ}
    (inb : ∀ a, off a + S1x256x2048.size a ≤ S4x256x2048.size a) (g : Fin 4) (hoff : off = ![g.val, 0, 0]) :
    View.ld d (Rect.unit (s := S4x256x2048) off S1x256x2048.size inb) = View.ld d (slotRect g) := by
  subst hoff; rfl

/-! ## A whole staging buffer read back -/

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- A load of a whole staging buffer through the full rectangle at zero offsets reads the buffer's contents. -/
theorem rd_whole {s : Shape} {e : EltTy} (arg : Memref sig .tc .vmem s e) (harg : arg.IsWhole) {off : Fin s.rank → ℕ}
    (hz : off = fun _ => 0) (inb : ∀ a, off a + s.size a ≤ s.size a) (X : s.Idx → Elt F e) :
    View.readAt (Elt F) arg.view (Rect.unit off s.size inb).toLoadRect (harg.unread X) = X := by
  rw [View.readAt_eq_ld, harg.read_unread, View.ld_unit_zero hz]

/-- A load of one slot of the scratch at contents `d` reads `d` through the slot's rectangle. -/
theorem rd_scratch (d : Vec F S4x256x2048 .f32) {off : Fin 3 → ℕ}
    (inb : ∀ a, off a + S1x256x2048.size a ≤ S4x256x2048.size a) :
    View.readAt (Elt F) scM.view (Rect.unit (s := S4x256x2048) off S1x256x2048.size inb).toLoadRect
      ((Memref.isWhole_whole cc0_scratch0).unread d) = View.ld d (Rect.unit (s := S4x256x2048) off S1x256x2048.size inb) := by
  rw [View.readAt_eq_ld, (Memref.isWhole_whole cc0_scratch0).read_unread]

/-- A load of a slot after stores reads the stored contents through the slot's rectangle. -/
theorem rd_scratch_writes (f : scM.view.ty.Contents (Elt F)) (L : List (View.Piece (Elt F) S4x256x2048 .f32)) {off : Fin 3 → ℕ}
    (inb : ∀ a, off a + S1x256x2048.size a ≤ S4x256x2048.size a) :
    View.readAt (Elt F) scM.view (Rect.unit (s := S4x256x2048) off S1x256x2048.size inb).toLoadRect (scM.view.writes (Elt F) f L)
      = View.ld (scM.view.read (Elt F) (scM.view.writes (Elt F) f L)) (Rect.unit (s := S4x256x2048) off S1x256x2048.size inb) :=
  View.readAt_eq_ld _ _ _

/-! ## The grid's arithmetic, decided once over its 512 points -/

/-- The slot a point's body addresses is its gate's. -/
theorem off1_eq : ∀ t : Fin cfg0.N, k0_off1 (grid0.coords t) = ![t.val / 8 % 4, 0, 0] :=
  (by decide +kernel : ∀ t : Fin grid0.N, k0_off1 (grid0.coords t) = ![t.val / 8 % 4, 0, 0])
theorem off2_eq : ∀ t : Fin cfg0.N, k0_off2 (grid0.coords t) = ![t.val / 8 % 4, 0, 0] :=
  (by decide +kernel : ∀ t : Fin grid0.N, k0_off2 (grid0.coords t) = ![t.val / 8 % 4, 0, 0])
theorem off3_eq : ∀ t : Fin cfg0.N, k0_off3 (grid0.coords t) = ![t.val / 8 % 4, 0, 0] :=
  (by decide +kernel : ∀ t : Fin grid0.N, k0_off3 (grid0.coords t) = ![t.val / 8 % 4, 0, 0])

/-- The reset branch is taken at the first reduction tile. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The bias branch is taken at the last reduction tile. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)
/-- The output branch is taken at the last point of a batch tile. -/
theorem hcond3 : ∀ t : Fin cfg0.N, k0_cond3 (grid0.coords t) = 1#1 ↔ t.val % 32 = 31 :=
  (by decide +kernel : ∀ t : Fin grid0.N, k0_cond3 (grid0.coords t) = 1#1 ↔ t.val % 32 = 31)

/-- The inputs are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Away from the last point of a batch tile the two outputs are idle and are not written back. -/
theorem idleAt6 : ∀ t : Fin cfg0.N, ¬ t.val % 32 = 31 → cfg0.idle 6 (grid0.coords t) = true := by decide +kernel
theorem idleAt7 : ∀ t : Fin cfg0.N, ¬ t.val % 32 = 31 → cfg0.idle 7 (grid0.coords t) = true := by decide +kernel
theorem noFlush6 : ∀ t : Fin cfg0.N, ¬ t.val % 32 = 31 → (cfg0.win 6).flush t = false := by decide +kernel
theorem noFlush7 : ∀ t : Fin cfg0.N, ¬ t.val % 32 = 31 → (cfg0.win 7).flush t = false := by decide +kernel
/-- At the last point of a batch tile they are live. -/
theorem liveAt6 : ∀ t : Fin cfg0.N, t.val % 32 = 31 → cfg0.idle 6 (grid0.coords t) = false := by decide +kernel
theorem liveAt7 : ∀ t : Fin cfg0.N, t.val % 32 = 31 → cfg0.idle 7 (grid0.coords t) = false := by decide +kernel

end Cert.KernelIdeal.Hand

end
-- ==== Proof.KI.RunA.lean ====
/- The kernel body run symbolically in one of its four control cases (which of the three `pl.when` branches are
   taken): the stores it makes into the scratch, and into the outputs where it writes them, are found by the run. -/
import proofs.«168793_j10007273800256_1_alg».proof.Proof.KI.State

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of the first reduction tile: the gate's slot is reset, then the two partial products are added to it; the outputs are left as found. -/
noncomputable def bodyRunA (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S4x256x2048 .f32) (harg11 : arg11.IsWhole)
    (hc1 : k0_cond1 i = 1#1) (hc2 : ¬ k0_cond2 i = 1#1) (hc3 : ¬ k0_cond3 i = 1#1)
    (x0 : Vec F S256x256 .f32) (x1 : Vec F S256x256 .f32) (x2 : Vec F S256x2048 .f32) (x3 : Vec F S2048x256 .bf16) (x4 : Vec F S2048x256 .bf16) (x5 : Vec F S1x1x2048 .f32)
    (xs : Vec F S4x256x2048 .f32) :
    { LS : List (View.Piece (Elt F) S4x256x2048 .f32) //
      ∀ (xi6 xi7 : Vec F S256x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7
            ∗ owns (c : Thread nD τ) arg11 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7
            ∗ (arg11.view.loc (c : Thread nD τ) ↦[arg11.view.set]{fullShare} arg11.view.writes (Elt F) (harg11.unread xs) LS)) -∗ K ⟨⟩))
          ⊢ wp frame (wpE (defs₀ (F := F)) Variants.none c none) E (cc0__qlstm_kernel i arg3 harg3 arg4 harg4 arg5 harg5 arg6 harg6 arg7 harg7 arg8 harg8 arg9 harg9 arg10 harg10 arg11 harg11) K } := by
  refine ⟨?_, fun xi6 xi7 E K => ?run⟩
  case run =>
    simp only [cc0__qlstm_kernel_eq_skeleton]; unfold cc0__qlstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hfs
    sl_exec (disch := first | exact hc1 | exact hc2 | exact hc3)

    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexact HS

end Cert.KernelIdeal.Hand

end
-- ==== Proof.KI.StepA.lean ====
/-
  The scratch after a point of the first reduction tile: the point's gate's slot, reset, holds the point's step over
  zero; the other slots are as they were.
-/
import proofs.«168793_j10007273800256_1_alg».proof.Proof.KI.Scratch
import proofs.«168793_j10007273800256_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem scrInv_A (c : Dev nD) (t : Fin cfg0.N)
    (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole)
    (hc1 : k0_cond1 (grid0.coords t) = 1#1) (hc2 : ¬ k0_cond2 (grid0.coords t) = 1#1) (hc3 : ¬ k0_cond3 (grid0.coords t) = 1#1)
    (d : Vec F S4x256x2048 .f32) (hprev : ∀ ht0 : t.val ≠ 0, ScrInv m c (t.val - 1) (by have := t.isLt; omega) d) :
    ScrInv m c t.val t.isLt (scM.view.read (Elt F) (scM.view.writes (Elt F) ((Memref.isWhole_whole cc0_scratch0).unread d)
      (bodyRunA c (grid0.coords t) arg3 harg3 arg4 harg4 arg5 harg5 arg6 harg6 arg7 harg7 arg8 harg8 arg9 harg9 arg10 harg10 scM (Memref.isWhole_whole _) hc1 hc2 hc3
        (iblk m c 0 t) (iblk m c 1 t) (iblk m c 2 t) (iblk m c 3 t) (iblk m c 4 t) (iblk m c 5 t) d).1)) := by
  have h0 : t.val % 8 = 0 := (hcond1 t).mp hc1
  have h7 : ¬ t.val % 8 = 7 := fun h => hc2 ((hcond2 t).mpr h)
  obtain ⟨n, hn⟩ := t
  cases n with
  | zero =>
    intro g hg
    have hg0 : g.val = 0 := by have : g.val * 8 ≤ 0 := hg; omega
    funext x
    show scM.view.read (Elt F) _ ((slotRect g).idx x) = _
    unfold bodyRunA; dsimp only; sl_unfold_words
    have hoff : k0_off2 (grid0.coords ⟨0, hn⟩) = ![g.val, 0, 0] := (off2_eq ⟨0, hn⟩).trans (by rw [hg0]; exact congrArg (fun v => (![v, 0, 0] : Fin 3 → ℕ)) (show (0 : ℕ) / 8 % 4 = 0 from rfl))
    refine Eq.trans (read_slot_hit (F := F) _ _ _ _ g hoff x) ?_
    rw [slotAt_zero m c hn g]
    unfold slotStep
    rw [if_neg (by decide : ¬ 0 % 8 = 7), if_pos (by decide : 0 % 8 = 0)]
    refine congrFun ((congrArg₂ (fun a b => k0_pay4 (F := F) a b _ _ _) (rd_whole arg3 harg3 zero2 _ _) (rd_whole arg4 harg4 zero2 _ _) |>.trans
        (congrArg₂ (fun a b => k0_pay4 (F := F) _ _ a b _) (rd_whole arg6 harg6 zero2 _ _) (rd_whole arg7 harg7 zero2 _ _))).trans ?_) x
    exact congrArg (k0_pay4 (F := F) _ _ _ _) (View.readCov_cons_toLoadRect _ _ _ _)
  | succ n =>
    have h0' : (n + 1) % 8 = 0 := h0
    have h7' : ¬ (n + 1) % 8 = 7 := h7
    have hg8 : ∀ g : Fin 4, g.val * 8 ≤ n + 1 → ¬ (n + 1) / 8 % 4 = g.val → g.val * 8 ≤ n := by
      intro g h1 h2
      have := g.isLt
      by_contra hc
      have e : n + 1 = g.val * 8 := by omega
      apply h2
      rw [e]
      omega
    have hprev' : ScrInv m c n (Nat.lt_of_succ_lt hn) d := hprev (Nat.succ_ne_zero n)
    intro g hg
    have hg : g.val * 8 ≤ n + 1 := hg
    funext x
    show scM.view.read (Elt F) _ ((slotRect g).idx x) = _
    unfold bodyRunA; dsimp only; sl_unfold_words
    by_cases hgg : (n + 1) / 8 % 4 = g.val
    · have hoff : k0_off2 (grid0.coords ⟨n + 1, hn⟩) = ![g.val, 0, 0] := (off2_eq ⟨n + 1, hn⟩).trans (by rw [hgg])
      refine Eq.trans (read_slot_hit (F := F) _ _ _ _ g hoff x) ?_
      rw [slotAt_succ_hit m c n hn g hgg]
      unfold slotStep
      rw [if_neg h7', if_pos h0']
      refine congrFun ((congrArg₂ (fun a b => k0_pay4 (F := F) a b _ _ _) (rd_whole arg3 harg3 zero2 _ _) (rd_whole arg4 harg4 zero2 _ _) |>.trans
        (congrArg₂ (fun a b => k0_pay4 (F := F) _ _ a b _) (rd_whole arg6 harg6 zero2 _ _) (rd_whole arg7 harg7 zero2 _ _))).trans ?_) x
      exact congrArg (k0_pay4 (F := F) _ _ _ _) (View.readCov_cons_toLoadRect _ _ _ _)
    · refine Eq.trans (read_slot_miss (F := F) _ _ _ _ ⟨(n + 1) / 8 % 4, Nat.mod_lt _ (by omega)⟩ g (off2_eq ⟨n + 1, hn⟩) (fun h => hgg h.symm) x) ?_
      refine Eq.trans (read_slot_miss (F := F) _ _ _ _ ⟨(n + 1) / 8 % 4, Nat.mod_lt _ (by omega)⟩ g (off1_eq ⟨n + 1, hn⟩) (fun h => hgg h.symm) x) ?_
      refine Eq.trans (read_slot_nil d _) ?_
      rw [slotAt_succ_miss m c n hn g hgg]
      have hp : View.ld d (slotRect g) = slotAt m c n (Nat.lt_of_succ_lt hn) g := hprev' g (hg8 g hg hgg)
      exact congrFun hp x

end Cert.KernelIdeal.Hand

end
-- ==== Proof.KI.RunB.lean ====
/- The kernel body run symbolically in one of its four control cases (which of the three `pl.when` branches are
   taken): the stores it makes into the scratch, and into the outputs where it writes them, are found by the run. -/
import proofs.«168793_j10007273800256_1_alg».proof.Proof.KI.State

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of a middle reduction tile: the two partial products are added to the gate's slot; the outputs are left as found. -/
noncomputable def bodyRunB (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S4x256x2048 .f32) (harg11 : arg11.IsWhole)
    (hc1 : ¬ k0_cond1 i = 1#1) (hc2 : ¬ k0_cond2 i = 1#1) (hc3 : ¬ k0_cond3 i = 1#1)
    (x0 : Vec F S256x256 .f32) (x1 : Vec F S256x256 .f32) (x2 : Vec F S256x2048 .f32) (x3 : Vec F S2048x256 .bf16) (x4 : Vec F S2048x256 .bf16) (x5 : Vec F S1x1x2048 .f32)
    (xs : Vec F S4x256x2048 .f32) :
    { LS : List (View.Piece (Elt F) S4x256x2048 .f32) //
      ∀ (xi6 xi7 : Vec F S256x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7
            ∗ owns (c : Thread nD τ) arg11 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7
            ∗ (arg11.view.loc (c : Thread nD τ) ↦[arg11.view.set]{fullShare} arg11.view.writes (Elt F) (harg11.unread xs) LS)) -∗ K ⟨⟩))
          ⊢ wp frame (wpE (defs₀ (F := F)) Variants.none c none) E (cc0__qlstm_kernel i arg3 harg3 arg4 harg4 arg5 harg5 arg6 harg6 arg7 harg7 arg8 harg8 arg9 harg9 arg10 harg10 arg11 harg11) K } := by
  refine ⟨?_, fun xi6 xi7 E K => ?run⟩
  case run =>
    simp only [cc0__qlstm_kernel_eq_skeleton]; unfold cc0__qlstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hfs
    sl_exec (disch := first | exact hc1 | exact hc2 | exact hc3)

    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexact HS

end Cert.KernelIdeal.Hand

end
-- ==== Proof.KI.StepB.lean ====
/-
  The scratch after a point of a middle reduction tile: the point's gate's slot holds the point's step over what it
  held; the other slots are as they were.
-/
import proofs.«168793_j10007273800256_1_alg».proof.Proof.KI.Scratch
import proofs.«168793_j10007273800256_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem scrInv_B (c : Dev nD) (t : Fin cfg0.N)
    (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole)
    (hc1 : ¬ k0_cond1 (grid0.coords t) = 1#1) (hc2 : ¬ k0_cond2 (grid0.coords t) = 1#1) (hc3 : ¬ k0_cond3 (grid0.coords t) = 1#1)
    (d : Vec F S4x256x2048 .f32) (ht0 : t.val ≠ 0) (hprev : ScrInv m c (t.val - 1) (by have := t.isLt; omega) d) :
    ScrInv m c t.val t.isLt (scM.view.read (Elt F) (scM.view.writes (Elt F) ((Memref.isWhole_whole cc0_scratch0).unread d)
      (bodyRunB c (grid0.coords t) arg3 harg3 arg4 harg4 arg5 harg5 arg6 harg6 arg7 harg7 arg8 harg8 arg9 harg9 arg10 harg10 scM (Memref.isWhole_whole _) hc1 hc2 hc3
        (iblk m c 0 t) (iblk m c 1 t) (iblk m c 2 t) (iblk m c 3 t) (iblk m c 4 t) (iblk m c 5 t) d).1)) := by
  have h0 : ¬ t.val % 8 = 0 := fun h => hc1 ((hcond1 t).mpr h)
  have h7 : ¬ t.val % 8 = 7 := fun h => hc2 ((hcond2 t).mpr h)
  obtain ⟨n, hn⟩ := t
  cases n with
  | zero => exact absurd rfl ht0
  | succ n =>
    have h0' : ¬ (n + 1) % 8 = 0 := h0
    have h7' : ¬ (n + 1) % 8 = 7 := h7
    have hg8 : ∀ g : Fin 4, g.val * 8 ≤ n + 1 → ¬ (n + 1) / 8 % 4 = g.val → g.val * 8 ≤ n := by
      intro g h1 h2
      have := g.isLt
      by_contra hc
      have e : n + 1 = g.val * 8 := by omega
      apply h2
      rw [e]
      omega
    intro g hg
    have hg : g.val * 8 ≤ n + 1 := hg
    funext x
    show scM.view.read (Elt F) _ ((slotRect g).idx x) = _
    unfold bodyRunB; dsimp only; sl_unfold_words
    by_cases hgg : (n + 1) / 8 % 4 = g.val
    · have hoff : k0_off2 (grid0.coords ⟨n + 1, hn⟩) = ![g.val, 0, 0] := (off2_eq ⟨n + 1, hn⟩).trans (by rw [hgg])
      refine Eq.trans (read_slot_hit (F := F) _ _ _ _ g hoff x) ?_
      rw [slotAt_succ_hit m c n hn g hgg]
      unfold slotStep
      rw [if_neg h7', if_neg h0']
      have hp : View.ld d (slotRect g) = slotAt m c n (Nat.lt_of_succ_lt hn) g := hprev g (by have := g.isLt; have e : n + 1 - 1 = n := rfl; show g.val * 8 ≤ n + 1 - 1; omega)
      rw [← hp, ← ld_slot_eq d (k0_off2_inb (grid0.coords ⟨n + 1, hn⟩)) g hoff, ← rd_scratch]
      exact congrFun (congrArg₂ (fun a b => k0_pay4 (F := F) a b _ _ _) (rd_whole arg3 harg3 zero2 _ _) (rd_whole arg4 harg4 zero2 _ _) |>.trans
        (congrArg₂ (fun a b => k0_pay4 (F := F) _ _ a b _) (rd_whole arg6 harg6 zero2 _ _) (rd_whole arg7 harg7 zero2 _ _))) x
    · refine Eq.trans (read_slot_miss (F := F) _ _ _ _ ⟨(n + 1) / 8 % 4, Nat.mod_lt _ (by omega)⟩ g (off2_eq ⟨n + 1, hn⟩) (fun h => hgg h.symm) x) ?_
      refine Eq.trans (read_slot_nil d _) ?_
      rw [slotAt_succ_miss m c n hn g hgg]
      have hp : View.ld d (slotRect g) = slotAt m c n (Nat.lt_of_succ_lt hn) g := hprev g (hg8 g hg hgg)
      exact congrFun hp x

end Cert.KernelIdeal.Hand

end
-- ==== Proof.KI.RunC.lean ====
/- The kernel body run symbolically in one of its four control cases (which of the three `pl.when` branches are
   taken): the stores it makes into the scratch, and into the outputs where it writes them, are found by the run. -/
import proofs.«168793_j10007273800256_1_alg».proof.Proof.KI.State

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of the last reduction tile of a gate other than the last: the partial products, then the bias row, are added to the gate's slot; the outputs are left as found. -/
noncomputable def bodyRunC (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S4x256x2048 .f32) (harg11 : arg11.IsWhole)
    (hc1 : ¬ k0_cond1 i = 1#1) (hc2 : k0_cond2 i = 1#1) (hc3 : ¬ k0_cond3 i = 1#1)
    (x0 : Vec F S256x256 .f32) (x1 : Vec F S256x256 .f32) (x2 : Vec F S256x2048 .f32) (x3 : Vec F S2048x256 .bf16) (x4 : Vec F S2048x256 .bf16) (x5 : Vec F S1x1x2048 .f32)
    (xs : Vec F S4x256x2048 .f32) :
    { LS : List (View.Piece (Elt F) S4x256x2048 .f32) //
      ∀ (xi6 xi7 : Vec F S256x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7
            ∗ owns (c : Thread nD τ) arg11 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7
            ∗ (arg11.view.loc (c : Thread nD τ) ↦[arg11.view.set]{fullShare} arg11.view.writes (Elt F) (harg11.unread xs) LS)) -∗ K ⟨⟩))
          ⊢ wp frame (wpE (defs₀ (F := F)) Variants.none c none) E (cc0__qlstm_kernel i arg3 harg3 arg4 harg4 arg5 harg5 arg6 harg6 arg7 harg7 arg8 harg8 arg9 harg9 arg10 harg10 arg11 harg11) K } := by
  refine ⟨?_, fun xi6 xi7 E K => ?run⟩
  case run =>
    simp only [cc0__qlstm_kernel_eq_skeleton]; unfold cc0__qlstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hfs
    sl_exec (disch := first | exact hc1 | exact hc2 | exact hc3)

    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexact HS

end Cert.KernelIdeal.Hand

end
-- ==== Proof.KI.StepC.lean ====
/-
  The scratch after a point of the last reduction tile of a gate other than the last: the gate's slot holds the
  point's step — the partial products, then the bias row, added to what it held; the other slots are as they were.
-/
import proofs.«168793_j10007273800256_1_alg».proof.Proof.KI.Scratch
import proofs.«168793_j10007273800256_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem scrInv_C (c : Dev nD) (t : Fin cfg0.N)
    (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole)
    (hc1 : ¬ k0_cond1 (grid0.coords t) = 1#1) (hc2 : k0_cond2 (grid0.coords t) = 1#1) (hc3 : ¬ k0_cond3 (grid0.coords t) = 1#1)
    (d : Vec F S4x256x2048 .f32) (ht0 : t.val ≠ 0) (hprev : ScrInv m c (t.val - 1) (by have := t.isLt; omega) d) :
    ScrInv m c t.val t.isLt (scM.view.read (Elt F) (scM.view.writes (Elt F) ((Memref.isWhole_whole cc0_scratch0).unread d)
      (bodyRunC c (grid0.coords t) arg3 harg3 arg4 harg4 arg5 harg5 arg6 harg6 arg7 harg7 arg8 harg8 arg9 harg9 arg10 harg10 scM (Memref.isWhole_whole _) hc1 hc2 hc3
        (iblk m c 0 t) (iblk m c 1 t) (iblk m c 2 t) (iblk m c 3 t) (iblk m c 4 t) (iblk m c 5 t) d).1)) := by
  have h0 : ¬ t.val % 8 = 0 := fun h => hc1 ((hcond1 t).mpr h)
  have h7 : t.val % 8 = 7 := (hcond2 t).mp hc2
  obtain ⟨n, hn⟩ := t
  cases n with
  | zero => exact absurd rfl ht0
  | succ n =>
    have h0' : ¬ (n + 1) % 8 = 0 := h0
    have h7' : (n + 1) % 8 = 7 := h7
    have hg8 : ∀ g : Fin 4, g.val * 8 ≤ n + 1 → ¬ (n + 1) / 8 % 4 = g.val → g.val * 8 ≤ n := by
      intro g h1 h2
      have := g.isLt
      by_contra hc
      have e : n + 1 = g.val * 8 := by omega
      apply h2
      rw [e]
      omega
    have hprev' : ScrInv m c n (Nat.lt_of_succ_lt hn) d := hprev
    intro g hg
    have hg : g.val * 8 ≤ n + 1 := hg
    funext x
    show scM.view.read (Elt F) _ ((slotRect g).idx x) = _
    unfold bodyRunC; dsimp only; sl_unfold_words
    by_cases hgg : (n + 1) / 8 % 4 = g.val
    · have hoff2 : k0_off2 (grid0.coords ⟨n + 1, hn⟩) = ![g.val, 0, 0] := (off2_eq ⟨n + 1, hn⟩).trans (by rw [hgg])
      have hoff3 : k0_off3 (grid0.coords ⟨n + 1, hn⟩) = ![g.val, 0, 0] := (off3_eq ⟨n + 1, hn⟩).trans (by rw [hgg])
      refine Eq.trans (read_slot_hit (F := F) _ _ _ _ g hoff3 x) ?_
      rw [slotAt_succ_hit m c n hn g hgg]
      unfold slotStep
      rw [if_pos h7', if_neg h0']
      have hp : View.ld d (slotRect g) = slotAt m c n (Nat.lt_of_succ_lt hn) g := hprev' g (by have := g.isLt; omega)
      rw [← hp, ← ld_slot_eq d (k0_off2_inb (grid0.coords ⟨n + 1, hn⟩)) g hoff2, ← rd_scratch]
      refine congrFun (congrArg₂ (fun a b => k0_pay5 (F := F) a b) ((View.readCov_cons_toLoadRect _ _ _ _).trans ?_) (rd_whole arg8 harg8 zero3 _ _)) x
      exact (congrArg₂ (fun a b => k0_pay4 (F := F) a b _ _ _) (rd_whole arg3 harg3 zero2 _ _) (rd_whole arg4 harg4 zero2 _ _) |>.trans
        (congrArg₂ (fun a b => k0_pay4 (F := F) _ _ a b _) (rd_whole arg6 harg6 zero2 _ _) (rd_whole arg7 harg7 zero2 _ _)))
    · refine Eq.trans (read_slot_miss (F := F) _ _ _ _ ⟨(n + 1) / 8 % 4, Nat.mod_lt _ (by omega)⟩ g (off3_eq ⟨n + 1, hn⟩) (fun h => hgg h.symm) x) ?_
      refine Eq.trans (read_slot_miss (F := F) _ _ _ _ ⟨(n + 1) / 8 % 4, Nat.mod_lt _ (by omega)⟩ g (off2_eq ⟨n + 1, hn⟩) (fun h => hgg h.symm) x) ?_
      refine Eq.trans (read_slot_nil d _) ?_
      rw [slotAt_succ_miss m c n hn g hgg]
      have hp : View.ld d (slotRect g) = slotAt m c n (Nat.lt_of_succ_lt hn) g := hprev' g (hg8 g hg hgg)
      exact congrFun hp x

end Cert.KernelIdeal.Hand

end
-- ==== Proof.KI.RunD.lean ====
/- The kernel body run symbolically in one of its four control cases (which of the three `pl.when` branches are
   taken): the stores it makes into the scratch, and into the outputs where it writes them, are found by the run. -/
import proofs.«168793_j10007273800256_1_alg».proof.Proof.KI.State

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last point of a batch tile: the partial products and the bias row are added to the last gate's slot, then the four slots and the old cell state's block give the two output blocks, each stored whole. -/
noncomputable def bodyRunD (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S4x256x2048 .f32) (harg11 : arg11.IsWhole)
    (hc1 : ¬ k0_cond1 i = 1#1) (hc2 : k0_cond2 i = 1#1) (hc3 : k0_cond3 i = 1#1)
    (x0 : Vec F S256x256 .f32) (x1 : Vec F S256x256 .f32) (x2 : Vec F S256x2048 .f32) (x3 : Vec F S2048x256 .bf16) (x4 : Vec F S2048x256 .bf16) (x5 : Vec F S1x1x2048 .f32)
    (xs : Vec F S4x256x2048 .f32) :
    Σ' (L6 : List (View.Piece (Elt F) S256x2048 .f32)) (L7 : List (View.Piece (Elt F) S256x2048 .f32)),
    { LS : List (View.Piece (Elt F) S4x256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d)
            ∗ owns (c : Thread nD τ) arg11 fullShare xs
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ (∃ f, arg9.view.loc (c : Thread nD τ) ↦[arg9.view.set]{fullShare} arg9.view.writes (Elt F) f L6)
            ∗ (∃ f, arg10.view.loc (c : Thread nD τ) ↦[arg10.view.set]{fullShare} arg10.view.writes (Elt F) f L7)
            ∗ (arg11.view.loc (c : Thread nD τ) ↦[arg11.view.set]{fullShare} arg11.view.writes (Elt F) (harg11.unread xs) LS)) -∗ K ⟨⟩))
          ⊢ wp frame (wpE (defs₀ (F := F)) Variants.none c none) E (cc0__qlstm_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__qlstm_kernel_eq_skeleton]; unfold cc0__qlstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg11.eq_unread hfs
    sl_exec (disch := first | exact hc1 | exact hc2 | exact hc3)

    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    isplitl [H7]
    · iexists _; iexact H7
    iexact HS

end Cert.KernelIdeal.Hand

end
-- ==== Proof.KI.StepD.lean ====
/-
  The last point of a batch tile: the last gate's slot is completed as at any last reduction tile, so all four slots
  are as the recursion says; the two output blocks, each stored whole, are the cell and hidden blocks computed from
  the four slots read back and the old cell state's block.
-/
import proofs.«168793_j10007273800256_1_alg».proof.Proof.KI.Scratch
import proofs.«168793_j10007273800256_1_alg».proof.Proof.KI.RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
theorem scrInv_D (c : Dev nD) (t : Fin cfg0.N)
    (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole)
    (hc1 : ¬ k0_cond1 (grid0.coords t) = 1#1) (hc2 : k0_cond2 (grid0.coords t) = 1#1) (hc3 : k0_cond3 (grid0.coords t) = 1#1)
    (d : Vec F S4x256x2048 .f32) (ht0 : t.val ≠ 0) (hprev : ScrInv m c (t.val - 1) (by have := t.isLt; omega) d) :
    ScrInv m c t.val t.isLt (scM.view.read (Elt F) (scM.view.writes (Elt F) ((Memref.isWhole_whole cc0_scratch0).unread d)
      (bodyRunD c (grid0.coords t) arg3 harg3 arg4 harg4 arg5 harg5 arg6 harg6 arg7 harg7 arg8 harg8 arg9 harg9 arg10 harg10 scM (Memref.isWhole_whole _) hc1 hc2 hc3
        (iblk m c 0 t) (iblk m c 1 t) (iblk m c 2 t) (iblk m c 3 t) (iblk m c 4 t) (iblk m c 5 t) d).2.2.1)) := by
  have h0 : ¬ t.val % 8 = 0 := fun h => hc1 ((hcond1 t).mpr h)
  have h7 : t.val % 8 = 7 := (hcond2 t).mp hc2
  obtain ⟨n, hn⟩ := t
  cases n with
  | zero => exact absurd rfl ht0
  | succ n =>
    have h0' : ¬ (n + 1) % 8 = 0 := h0
    have h7' : (n + 1) % 8 = 7 := h7
    have hg8 : ∀ g : Fin 4, g.val * 8 ≤ n + 1 → ¬ (n + 1) / 8 % 4 = g.val → g.val * 8 ≤ n := by
      intro g h1 h2
      have := g.isLt
      by_contra hc
      have e : n + 1 = g.val * 8 := by omega
      apply h2
      rw [e]
      omega
    have hprev' : ScrInv m c n (Nat.lt_of_succ_lt hn) d := hprev
    intro g hg
    have hg : g.val * 8 ≤ n + 1 := hg
    funext x
    show scM.view.read (Elt F) _ ((slotRect g).idx x) = _
    unfold bodyRunD; dsimp only; sl_unfold_words
    by_cases hgg : (n + 1) / 8 % 4 = g.val
    · have hoff2 : k0_off2 (grid0.coords ⟨n + 1, hn⟩) = ![g.val, 0, 0] := (off2_eq ⟨n + 1, hn⟩).trans (by rw [hgg])
      have hoff3 : k0_off3 (grid0.coords ⟨n + 1, hn⟩) = ![g.val, 0, 0] := (off3_eq ⟨n + 1, hn⟩).trans (by rw [hgg])
      refine Eq.trans (read_slot_hit (F := F) _ _ _ _ g hoff3 x) ?_
      rw [slotAt_succ_hit m c n hn g hgg]
      unfold slotStep
      rw [if_pos h7', if_neg h0']
      have hp : View.ld d (slotRect g) = slotAt m c n (Nat.lt_of_succ_lt hn) g := hprev' g (by have := g.isLt; omega)
      rw [← hp, ← ld_slot_eq d (k0_off2_inb (grid0.coords ⟨n + 1, hn⟩)) g hoff2, ← rd_scratch]
      refine congrFun (congrArg₂ (fun a b => k0_pay5 (F := F) a b) ((View.readCov_cons_toLoadRect _ _ _ _).trans ?_) (rd_whole arg8 harg8 zero3 _ _)) x
      exact (congrArg₂ (fun a b => k0_pay4 (F := F) a b _ _ _) (rd_whole arg3 harg3 zero2 _ _) (rd_whole arg4 harg4 zero2 _ _) |>.trans
        (congrArg₂ (fun a b => k0_pay4 (F := F) _ _ a b _) (rd_whole arg6 harg6 zero2 _ _) (rd_whole arg7 harg7 zero2 _ _)))
    · refine Eq.trans (read_slot_miss (F := F) _ _ _ _ ⟨(n + 1) / 8 % 4, Nat.mod_lt _ (by omega)⟩ g (off3_eq ⟨n + 1, hn⟩) (fun h => hgg h.symm) x) ?_
      refine Eq.trans (read_slot_miss (F := F) _ _ _ _ ⟨(n + 1) / 8 % 4, Nat.mod_lt _ (by omega)⟩ g (off2_eq ⟨n + 1, hn⟩) (fun h => hgg h.symm) x) ?_
      refine Eq.trans (read_slot_nil d _) ?_
      rw [slotAt_succ_miss m c n hn g hgg]
      have hp : View.ld d (slotRect g) = slotAt m c n (Nat.lt_of_succ_lt hn) g := hprev' g (hg8 g hg hgg)
      exact congrFun hp x

/-- Every slot has been started by the last point of a batch tile. -/
theorem started_D (t : Fin cfg0.N) (h31 : t.val % 32 = 31) (g : Fin 4) : g.val * 8 ≤ t.val := by
  have := g.isLt; omega

set_option maxHeartbeats 1000000 in
/-- The block stored into the cell-state output. -/
theorem out7_D (c : Dev nD) (t : Fin cfg0.N)
    (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole)
    (hc1 : ¬ k0_cond1 (grid0.coords t) = 1#1) (hc2 : k0_cond2 (grid0.coords t) = 1#1) (hc3 : k0_cond3 (grid0.coords t) = 1#1)
    (d : Vec F S4x256x2048 .f32) (ht0 : t.val ≠ 0) (hprev : ScrInv m c (t.val - 1) (by have := t.isLt; omega) d)
    (e7 : arg10.view.ty.Contents (Elt F)) :
    arg10.view.read (Elt F) (arg10.view.writes (Elt F) e7 (bodyRunD c (grid0.coords t) arg3 harg3 arg4 harg4 arg5 harg5 arg6 harg6 arg7 harg7 arg8 harg8 arg9 harg9 arg10 harg10 scM (Memref.isWhole_whole _) hc1 hc2 hc3
        (iblk m c 0 t) (iblk m c 1 t) (iblk m c 2 t) (iblk m c 3 t) (iblk m c 4 t) (iblk m c 5 t) d).2.1) = cellOut m c t.val t.isLt := by
  have hS := scrInv_D m c t arg3 harg3 arg4 harg4 arg5 harg5 arg6 harg6 arg7 harg7 arg8 harg8 arg9 harg9 arg10 harg10 hc1 hc2 hc3 d ht0 hprev
  have h31 : t.val % 32 = 31 := (hcond3 t).mp hc3
  have s0 := hS 0 (started_D t h31 0)
  have s1 := hS 1 (started_D t h31 1)
  have s3 := hS 3 (started_D t h31 3)
  unfold cellOut
  rw [← s0, ← s1, ← s3]
  unfold bodyRunD; dsimp only; sl_unfold_words
  refine Eq.trans (View.read_writes_eq_canon _ _ _ (fun y => ⟨_, List.mem_singleton_self _, View.mem_set_unit_zero zero2 Facts₀.inb_S256x2048_S256x2048_0_0 y⟩)) ?_
  refine Eq.trans (View.canon_unit_zero zero2 _ _) ?_
  refine congrArg (k0_pay1 (F := F) _ _ _) (rd_whole arg5 harg5 zero2 _ _) |>.trans ?_
  rfl

set_option maxHeartbeats 1000000 in
/-- The block stored into the hidden-state output. -/
theorem out6_D (c : Dev nD) (t : Fin cfg0.N)
    (arg3 : Memref sig .tc .vmem S256x256 .f32) (harg3 : arg3.IsWhole) (arg4 : Memref sig .tc .vmem S256x256 .f32) (harg4 : arg4.IsWhole) (arg5 : Memref sig .tc .vmem S256x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x1x2048 .f32) (harg8 : arg8.IsWhole) (arg9 : Memref sig .tc .vmem S256x2048 .f32) (harg9 : arg9.IsWhole) (arg10 : Memref sig .tc .vmem S256x2048 .f32) (harg10 : arg10.IsWhole)
    (hc1 : ¬ k0_cond1 (grid0.coords t) = 1#1) (hc2 : k0_cond2 (grid0.coords t) = 1#1) (hc3 : k0_cond3 (grid0.coords t) = 1#1)
    (d : Vec F S4x256x2048 .f32) (ht0 : t.val ≠ 0) (hprev : ScrInv m c (t.val - 1) (by have := t.isLt; omega) d)
    (e6 : arg9.view.ty.Contents (Elt F)) :
    arg9.view.read (Elt F) (arg9.view.writes (Elt F) e6 (bodyRunD c (grid0.coords t) arg3 harg3 arg4 harg4 arg5 harg5 arg6 harg6 arg7 harg7 arg8 harg8 arg9 harg9 arg10 harg10 scM (Memref.isWhole_whole _) hc1 hc2 hc3
        (iblk m c 0 t) (iblk m c 1 t) (iblk m c 2 t) (iblk m c 3 t) (iblk m c 4 t) (iblk m c 5 t) d).1) = hidOut m c t.val t.isLt := by
  have hS := scrInv_D m c t arg3 harg3 arg4 harg4 arg5 harg5 arg6 harg6 arg7 harg7 arg8 harg8 arg9 harg9 arg10 harg10 hc1 hc2 hc3 d ht0 hprev
  have h31 : t.val % 32 = 31 := (hcond3 t).mp hc3
  have s0 := hS 0 (started_D t h31 0)
  have s1 := hS 1 (started_D t h31 1)
  have s2 := hS 2 (started_D t h31 2)
  have s3 := hS 3 (started_D t h31 3)
  unfold hidOut cellOut
  rw [← s0, ← s1, ← s2, ← s3]
  unfold bodyRunD; dsimp only; sl_unfold_words
  refine Eq.trans (View.read_writes_eq_canon _ _ _ (fun y => ⟨_, List.mem_singleton_self _, View.mem_set_unit_zero zero2 Facts₀.inb_S256x2048_S256x2048_0_0 y⟩)) ?_
  refine Eq.trans (View.canon_unit_zero zero2 _ _) ?_
  refine congrArg (fun z => k0_pay6 (F := F) (k0_pay1 (F := F) _ _ _ z) _ _) (rd_whole arg5 harg5 zero2 _ _) |>.trans ?_
  rfl

end Cert.KernelIdeal.Hand

end
-- ==== Proof.KI.Body.lean ====
/-
  The body obligation of the one pipeline and the run it gives.

  At every grid point the body is handed the scratch at contents that agree with the recursion on the slots started
  so far (at anything before the first point), each input's staging buffer at its block, and the two outputs'
  buffers; which of its three branches it takes is decided by the point's place in the grid; it hands back the
  scratch at contents that agree with the recursion one point later, the inputs as found, and the outputs either as
  found (away from the last point of a batch tile, where they are idle and not written back) or at the hidden and cell
  blocks. With that, every weakly fair execution of the program terminates with the argument arrays unchanged and
  the two result arrays at what the proof data's write-backs compute.
-/
import proofs.«168793_j10007273800256_1_alg».proof.Proof.KI.StepA
import proofs.«168793_j10007273800256_1_alg».proof.Proof.KI.StepB
import proofs.«168793_j10007273800256_1_alg».proof.Proof.KI.StepC
import proofs.«168793_j10007273800256_1_alg».proof.Proof.KI.StepD
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
abbrev hs0_7 (t : Fin cfg0.N) : (ms0_7 t).IsWhole := hstage0_7 ((cfg0.slots t 7).cast nbuf0_7)

/-- What the body is called with at point `t`: the invariant, the core's debts, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 t], after0_0]
  rw [show (dats m 0 c).leavesExact 1 t = owns (c : Thread nD τ) (ms0_1 t) fullShare ((dats m 0 c).after 1 t) from by
    unfold Dat.leavesExact; rw [liveAt1 t], after0_1]
  rw [show (dats m 0 c).leavesExact 2 t = owns (c : Thread nD τ) (ms0_2 t) fullShare ((dats m 0 c).after 2 t) from by
    unfold Dat.leavesExact; rw [liveAt2 t], after0_2]
  rw [show (dats m 0 c).leavesExact 3 t = owns (c : Thread nD τ) (ms0_3 t) fullShare ((dats m 0 c).after 3 t) from by
    unfold Dat.leavesExact; rw [liveAt3 t], after0_3]
  rw [show (dats m 0 c).leavesExact 4 t = owns (c : Thread nD τ) (ms0_4 t) fullShare ((dats m 0 c).after 4 t) from by
    unfold Dat.leavesExact; rw [liveAt4 t], after0_4]
  rw [show (dats m 0 c).leavesExact 5 t = owns (c : Thread nD τ) (ms0_5 t) fullShare ((dats m 0 c).after 5 t) from by
    unfold Dat.leavesExact; rw [liveAt5 t], after0_5]
  have hN : t.val < 512 := lt_of_lt_of_eq t.isLt (show cfg0.N = 512 from N_0)
  by_cases h31 : t.val % 32 = 31
  · -- the last point of a batch tile
    have hc1 : ¬ k0_cond1 (grid0.coords t) = 1#1 := fun h => by have := (hcond1 t).mp h; omega
    have hc2 : k0_cond2 (grid0.coords t) = 1#1 := (hcond2 t).mpr (by omega)
    have hc3 : k0_cond3 (grid0.coords t) = 1#1 := (hcond3 t).mpr h31
    have hz : t.val ≠ 0 := by omega
    rw [show (dats m 0 c).leavesExact 6 t = owns (c : Thread nD τ) (ms0_6 t) fullShare ((dats m 0 c).after 6 t) from by
      unfold Dat.leavesExact; rw [liveAt6 t h31], after0_6]
    rw [show (dats m 0 c).leavesExact 7 t = owns (c : Thread nD τ) (ms0_7 t) fullShare ((dats m 0 c).after 7 t) from by
      unfold Dat.leavesExact; rw [liveAt7 t h31], after0_7]
    rw [PhiS_castSucc m c t, PhiS_pos m c _ _ hz]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRunD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 hc3 (iblk m c 0 t) (iblk m c 1 t) (iblk m c 2 t) (iblk m c 3 t) (iblk m c 4 t) (iblk m c 5 t) d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hg]
    · isplitl [HS]
      · iexists _; isplitr
        · ipureintro; exact scrInv_D m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d hz hd
        · unfold owns; iexists _; isplitr
          · ipureintro; rfl
          · iexact HS
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      · ipureintro; exact out6_D m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d hz hd e6
      · iexact H6
    · unfold owns; iexists _; isplitr
      · ipureintro; exact out7_D m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d hz hd e7
      · iexact H7
  · -- elsewhere the outputs are idle
    have hc3 : ¬ k0_cond3 (grid0.coords t) = 1#1 := fun h => h31 ((hcond3 t).mp h)
    rw [Dat.leavesExact_idle (dats m 0 c) 6 t (idleAt6 t h31) (noFlush6 t h31)]
    rw [Dat.leavesExact_idle (dats m 0 c) 7 t (idleAt7 t h31) (noFlush7 t h31)]
    by_cases h0 : t.val % 8 = 0
    · -- the first reduction tile
      have hc1 : k0_cond1 (grid0.coords t) = 1#1 := (hcond1 t).mpr h0
      have hc2 : ¬ k0_cond2 (grid0.coords t) = 1#1 := fun h => by have := (hcond2 t).mp h; omega
      by_cases hz : t.val = 0
      · rw [PhiS_castSucc m c t, PhiS_zero m c _ _ hz, PhiA0_eq]
        iintro ⟨⟨⟨%d, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 hc3 (iblk m c 0 t) (iblk m c 1 t) (iblk m c 2 t) (iblk m c 3 t) (iblk m c 4 t) (iblk m c 5 t) d).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS Hg]
        · isplitl [HS]
          · iexists _; isplitr
            · ipureintro; exact scrInv_A m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d (fun h => absurd hz h)
            · unfold owns; iexists _; isplitr
              · ipureintro; rfl
              · iexact HS
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS_castSucc m c t, PhiS_pos m c _ _ hz]
        iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 hc3 (iblk m c 0 t) (iblk m c 1 t) (iblk m c 2 t) (iblk m c 3 t) (iblk m c 4 t) (iblk m c 5 t) d).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS Hg]
        · isplitl [HS]
          · iexists _; isplitr
            · ipureintro; exact scrInv_A m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d (fun _ => hd)
            · unfold owns; iexists _; isplitr
              · ipureintro; rfl
              · iexact HS
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
    · have hc1 : ¬ k0_cond1 (grid0.coords t) = 1#1 := fun h => h0 ((hcond1 t).mp h)
      have hz : t.val ≠ 0 := fun h => h0 (by rw [h])
      rw [PhiS_castSucc m c t, PhiS_pos m c _ _ hz]
      by_cases h7 : t.val % 8 = 7
      · -- the last reduction tile of a gate other than the last
        have hc2 : k0_cond2 (grid0.coords t) = 1#1 := (hcond2 t).mpr h7
        iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((bodyRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 hc3 (iblk m c 0 t) (iblk m c 1 t) (iblk m c 2 t) (iblk m c 3 t) (iblk m c 4 t) (iblk m c 5 t) d).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS Hg]
        · isplitl [HS]
          · iexists _; isplitr
            · ipureintro; exact scrInv_C m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d hz hd
            · unfold owns; iexists _; isplitr
              · ipureintro; rfl
              · iexact HS
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · -- a middle reduction tile
        have hc2 : ¬ k0_cond2 (grid0.coords t) = 1#1 := fun h => h7 ((hcond2 t).mp h)
        iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((bodyRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 hc3 (iblk m c 0 t) (iblk m c 1 t) (iblk m c 2 t) (iblk m c 3 t) (iblk m c 4 t) (iblk m c 5 t) d).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS Hg]
        · isplitl [HS]
          · iexists _; isplitr
            · ipureintro; exact scrInv_B m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc1 hc2 hc3 d hz hd
            · unfold owns; iexists _; isplitr
              · ipureintro; rfl
              · iexact HS
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: what is known of the scratch is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%d, -, HS⟩, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 512 := N_0; omega)

set_option backward.isDefEq.respectTransparency.types false in
/-- Every weakly fair execution of the program terminates; every final state has each array of the pipeline at what the
    proof data's write-backs compute and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The LSTM cell both programs compute, as one function of the six argument arrays over the extended reals.

  For batch row `r` and gate column `q` (the four gates f, i, o, g occupy the column ranges
  [0, 2048), [2048, 4096), [4096, 6144), [6144, 8192)), the pre-activation is
      rawGate r q = (Σₖ h[r,k]·W_hh[q,k] + b[q]) + Σₖ x[r,k]·W_ih[q,k].
  With the hard sigmoid `hsig v = min 1 (max 0 (v / 6 + 1/2))` and the hard tanh `htanh v = min 1 (max (−1) v)`,
      c₁[r,j] = hsig(f)·c₀[r,j] + hsig(i)·htanh(g),      h₁[r,j] = hsig(o)·htanh(c₁[r,j]).
  The four literals are kept as the float words both programs print (6, 1/2, 0, 1, −1); nothing evaluates them.
-/
import Idealize.ShloMosaic.PureOps.Ideal
import Idealize.ShloMosaic.Lib.ValueIdx

noncomputable section

open scoped BigOperators

namespace Cert.Spec

open Idealize.ShloMosaic Idealize.ShloMosaic.ValueIdx

/-- Activations: batch × features. -/
abbrev SAct : Shape := ⟨2, ![4096, 2048]⟩
/-- Stacked gate weights: (4 · hidden) × features. -/
abbrev SW : Shape := ⟨2, ![8192, 2048]⟩
/-- Stacked gate bias. -/
abbrev SB : Shape := ⟨1, ![8192]⟩

/-- The pre-activation of gate column `q` on batch row `r`: the hidden product plus the bias, plus the input product. -/
def rawGate (x h : SAct.Idx → EReal) (Wih Whh : SW.Idx → EReal) (b : SB.Idx → EReal) (r : Fin 4096) (q : Fin 8192) : EReal :=
  ((∑ k : Fin 2048, h (ix2 r k) * Whh (ix2 q k)) + b (ix1 q)) + ∑ k : Fin 2048, x (ix2 r k) * Wih (ix2 q k)

/-- The hard sigmoid `clip(v / 6 + 1/2, 0, 1)`, the literals as the printed f32 words. -/
def hsig (v : EReal) : EReal :=
  min (Ideal.ofBits .f32 0x3F800000#32)
    (max (Ideal.ofBits .f32 0x00000000#32) (Ideal.div v (Ideal.ofBits .f32 0x40C00000#32) + Ideal.ofBits .f32 0x3F000000#32))

/-- The hard tanh `clip(v, −1, 1)`. -/
def htanh (v : EReal) : EReal :=
  min (Ideal.ofBits .f32 0x3F800000#32) (max (Ideal.ofBits .f32 0xBF800000#32) v)

/-- Column `j` of gate `g` in the stacked 4·hidden axis. -/
def col (g : Fin 4) (j : Fin 2048) : Fin 8192 := ⟨g.val * 2048 + j.val, by omega⟩

/-- The new cell state. -/
def specC (x h c0 : SAct.Idx → EReal) (Wih Whh : SW.Idx → EReal) (b : SB.Idx → EReal) : SAct.Idx → EReal := fun y =>
  hsig (rawGate x h Wih Whh b (y 0) (col 0 (y 1))) * c0 y
    + hsig (rawGate x h Wih Whh b (y 0) (col 1 (y 1))) * htanh (rawGate x h Wih Whh b (y 0) (col 3 (y 1)))

/-- The new hidden state. -/
def specH (x h c0 : SAct.Idx → EReal) (Wih Whh : SW.Idx → EReal) (b : SB.Idx → EReal) : SAct.Idx → EReal := fun y =>
  hsig (rawGate x h Wih Whh b (y 0) (col 2 (y 1))) * htanh (specC x h c0 Wih Whh b y)

end Cert.Spec

end
-- ==== Proof.KI.Arrays.lean ====
/-
  The six argument arrays as the launch memory holds them on a core, read as extended-real arrays over the
  specification's shapes.
-/
import proofs.«168793_j10007273800256_1_alg».proof.Proof.KI.State
import proofs.«168793_j10007273800256_1_alg».proof.Proof.Spec

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The input activations `x`. -/
abbrev aX (c : Dev nD) : Cert.Spec.SAct.Idx → EReal := m ((c.tc : Thread nD τ).loc main_arg0)
/-- The old hidden state `h₀`. -/
abbrev aH (c : Dev nD) : Cert.Spec.SAct.Idx → EReal := m ((c.tc : Thread nD τ).loc main_arg1)
/-- The old cell state `c₀`. -/
abbrev aC (c : Dev nD) : Cert.Spec.SAct.Idx → EReal := m ((c.tc : Thread nD τ).loc main_arg2)
/-- The input weights `W_ih`. -/
abbrev aWih (c : Dev nD) : Cert.Spec.SW.Idx → EReal := m ((c.tc : Thread nD τ).loc main_arg3)
/-- The hidden weights `W_hh`. -/
abbrev aWhh (c : Dev nD) : Cert.Spec.SW.Idx → EReal := m ((c.tc : Thread nD τ).loc main_arg4)
/-- The bias `b_hh`. -/
abbrev aB (c : Dev nD) : Cert.Spec.SB.Idx → EReal := m ((c.tc : Thread nD τ).loc main_arg5)

/-- Feature `i` of reduction tile `k` in the whole feature axis. -/
def featOf (k : Fin 8) (i : Fin 256) : Fin 2048 := ⟨k.val * 256 + i.val, by omega⟩

/-- Row `r` of batch tile `bi` in the whole batch axis. -/
def rowOf (bi : Fin 16) (r : Fin 256) : Fin 4096 := ⟨bi.val * 256 + r.val, by omega⟩

/-- Reduction tile `k`'s share of the input product for batch row `r` of tile `bi` and column `j` of gate `g`. -/
def partA (c : Dev nD) (bi : Fin 16) (g : Fin 4) (k : Fin 8) (r : Fin 256) (j : Fin 2048) : EReal :=
  ∑ i : Fin 256, aX m c (ix2 (rowOf bi r) (featOf k i)) * aWih m c (ix2 (Cert.Spec.col g j) (featOf k i))

/-- Reduction tile `k`'s share of the hidden product for the same row and column. -/
def partB (c : Dev nD) (bi : Fin 16) (g : Fin 4) (k : Fin 8) (r : Fin 256) (j : Fin 2048) : EReal :=
  ∑ i : Fin 256, aH m c (ix2 (rowOf bi r) (featOf k i)) * aWhh m c (ix2 (Cert.Spec.col g j) (featOf k i))

end Cert.KernelIdeal.HandValue

end
-- ==== Proof.KI.StepApply.lean ====
/-
  One grid point's update of its gate's scratch slot, read at one element: the slot's previous value there (zero at
  the first reduction tile) plus the point's share of the input product plus its share of the hidden product, plus
  the gate's bias at the last reduction tile. The point's blocks are read back as entries of the argument arrays:
  block (bi, k) of the activations holds rows bi·256 … and features k·256 …; block (g, k) of a weight matrix holds the
  gate's 2048 columns and the same features (the matrices are converted to a narrower float format before the
  kernel, which changes nothing over the extended reals); block g of the reshaped bias holds the gate's 2048 entries.
-/
import proofs.«168793_j10007273800256_1_alg».proof.Proof.KI.Arrays
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

namespace Step

/-! ## The dot's operand indices -/

theorem dotLhs_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem dotLhs_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem dotRhs_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem dotRhs_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The product of a 256 × 256 block with a 256 × 2048 block into zeros, at one element: the sum over the shared axis. -/
theorem matmul_zero_apply (a : FVec Ideal S256x256 .bf16) (b : FVec Ideal S256x2048 .bf16) (r : Fin 256) (j : Fin 2048) :
    matmul dot_S256x256_S256x2048_S256x2048_1_0_0_1_n_n none a b (constant S256x2048 .f32 0x00000000#32) (ix2 r j)
      = ∑ i : Fin 256, a (ix2 r i) * b (ix2 i j) := by
  simp only [matmul]
  rw [Ideal.matmul_constant_zero_apply, ← Equiv.sum_comp (ValueIdx.contrEquiv1 dot_S256x256_S256x2048_S256x2048_1_0_0_1_n_n 256 rfl rfl).symm]
  refine Finset.sum_congr rfl fun k _ => ?_
  have hk := ValueIdx.contrEquiv1_symm_val dot_S256x256_S256x2048_S256x2048_1_0_0_1_n_n 256 rfl rfl k
  have el : dot_S256x256_S256x2048_S256x2048_1_0_0_1_n_n.lhsIdx (ix2 r j) ((ValueIdx.contrEquiv1 dot_S256x256_S256x2048_S256x2048_1_0_0_1_n_n 256 rfl rfl).symm k) = ix2 r k := funext fun a => Fin.ext (by
    match a with
    | ⟨0, _⟩ => exact dotLhs_0 _ _
    | ⟨1, _⟩ => exact (dotLhs_1 _ _).trans hk)
  have er : dot_S256x256_S256x2048_S256x2048_1_0_0_1_n_n.rhsIdx (ix2 r j) ((ValueIdx.contrEquiv1 dot_S256x256_S256x2048_S256x2048_1_0_0_1_n_n 256 rfl rfl).symm k) = ix2 k j := funext fun a => Fin.ext (by
    match a with
    | ⟨0, _⟩ => exact (dotRhs_0 _ _).trans hk
    | ⟨1, _⟩ => exact dotRhs_1 _ _)
  rw [el, er]

/-! ## The payloads at one element -/

/-- The freshly reset slot is zero everywhere. -/
theorem pay3_apply (r : Fin 256) (j : Fin 2048) : (k0_pay3 (F := Ideal)) (ix3 (0 : Fin 1) r j) = (0 : EReal) := by
  unfold k0_pay3
  refine (shapeCast_ab_1ab_apply _ _ (0 : Fin 1) r j).trans ?_
  exact Ideal.ofBits_zero_f32

/-- One operand pair's product at one element: the activations' row against the weight block's ROW (the block is
    transposed before the product), summed over the 256 shared features. -/
theorem prod_apply (x : FVec Ideal S256x256 .f32) (w : FVec Ideal S2048x256 .bf16) (r : Fin 256) (j : Fin 2048) :
    matmul dot_S256x256_S256x2048_S256x2048_1_0_0_1_n_n none (truncf .bf16 x bitsLt_bf16_f32)
        (transpose S256x2048 [1, 0] (shapeCast S2048x256 w shapeCasts_S2048x256_S2048x256) transposes_S2048x256_p1_0_S256x2048)
        (constant S256x2048 .f32 0x00000000#32) (ix2 r j)
      = ∑ i : Fin 256, x (ix2 r i) * w (ix2 j i) := by
  rw [matmul_zero_apply]
  refine Finset.sum_congr rfl fun i _ => ?_
  rw [truncf_apply, transpose_ix2_apply, shapeCast_self]

/-- The accumulation step at one element: what the slot held plus the two products. -/
theorem pay4_apply (x0 x1 : FVec Ideal S256x256 .f32) (w3 w4 : FVec Ideal S2048x256 .bf16) (prev : FVec Ideal S1x256x2048 .f32)
    (r : Fin 256) (j : Fin 2048) :
    k0_pay4 (F := Ideal) x0 x1 w3 w4 prev (ix3 (0 : Fin 1) r j)
      = (prev (ix3 (0 : Fin 1) r j) + ∑ i : Fin 256, x0 (ix2 r i) * w3 (ix2 j i)) + ∑ i : Fin 256, x1 (ix2 r i) * w4 (ix2 j i) := by
  unfold k0_pay4
  refine (shapeCast_ab_1ab_apply _ _ (0 : Fin 1) r j).trans ?_
  rw [addf_apply, addf_apply, prod_apply, prod_apply, shapeCast_1ab_ab_apply]

/-- The bias step at one element: the slot's value plus the bias row's entry in the element's column. -/
theorem pay5_apply (a : FVec Ideal S1x256x2048 .f32) (b5 : FVec Ideal S1x1x2048 .f32) (r : Fin 256) (j : Fin 2048) :
    k0_pay5 (F := Ideal) a b5 (ix3 (0 : Fin 1) r j) = a (ix3 (0 : Fin 1) r j) + b5 (ix3 (0 : Fin 1) (0 : Fin 1) j) := by
  unfold k0_pay5
  refine (shapeCast_ab_1ab_apply _ _ (0 : Fin 1) r j).trans ?_
  rw [addf_apply, broadcastTo_1b_ab_apply, shapeCast_1ab_ab_apply, shapeCast_1ab_ab_apply]

/-! ## The block indices over the grid -/

/-- The windows' block indices at grid point `t`, decided once over the 512 points: the activations move with the
    batch tile (`t / 32`) and the reduction tile (`t % 8`), the weights with the gate (`t / 8 % 4`) and the reduction
    tile, the bias with the gate alone. -/
theorem idx_facts : ∀ t : Fin cfg0.N,
    win0_0.index t (0 : Fin 2) = t.val / 32 ∧ win0_0.index t (1 : Fin 2) = t.val % 8
    ∧ win0_1.index t (0 : Fin 2) = t.val / 32 ∧ win0_1.index t (1 : Fin 2) = t.val % 8
    ∧ win0_3.index t (0 : Fin 2) = t.val / 8 % 4 ∧ win0_3.index t (1 : Fin 2) = t.val % 8
    ∧ win0_4.index t (0 : Fin 2) = t.val / 8 % 4 ∧ win0_4.index t (1 : Fin 2) = t.val % 8
    ∧ win0_5.index t (0 : Fin 3) = t.val / 8 % 4 ∧ win0_5.index t (1 : Fin 3) = 0 ∧ win0_5.index t (2 : Fin 3) = 0 :=
  (by decide +kernel : ∀ t : Fin grid0.N, _)

/-! ## The point's blocks, by their literal types -/

/-- The activations' block at point `t`. -/
abbrev blkX (c : Dev nD) (t : Fin cfg0.N) : FVec Ideal S256x256 .f32 := iblk m c 0 t
/-- The old hidden state's block at point `t`. -/
abbrev blkH (c : Dev nD) (t : Fin cfg0.N) : FVec Ideal S256x256 .f32 := iblk m c 1 t

theorem blkX_apply (c : Dev nD) (t : Fin cfg0.N) (r i : Fin 256) (x : Fin 4096) (f : Fin 2048)
    (hx : x.val = t.val / 32 * 256 + r.val) (hf : f.val = t.val % 8 * 256 + i.val) :
    blkX m c t (ix2 r i) = aX m c (ix2 x f) := by
  obtain ⟨e0, e1, -⟩ := idx_facts t
  show V m c main_arg0 (((cfg0.win 0).blk t).view.emb (ix2 r i)) = m ((c.tc : Thread nD τ).loc main_arg0) (ix2 x f)
  rw [V_main_arg0]
  refine congrArg _ ?_
  funext a; apply Fin.ext
  match a with
  | ⟨0, _⟩ => show win0_0.index t (0 : Fin 2) * 256 + 1 * r.val = x.val; omega
  | ⟨1, _⟩ => show win0_0.index t (1 : Fin 2) * 256 + 1 * i.val = f.val; omega

theorem blkH_apply (c : Dev nD) (t : Fin cfg0.N) (r i : Fin 256) (x : Fin 4096) (f : Fin 2048)
    (hx : x.val = t.val / 32 * 256 + r.val) (hf : f.val = t.val % 8 * 256 + i.val) :
    blkH m c t (ix2 r i) = aH m c (ix2 x f) := by
  obtain ⟨-, -, e0, e1, -⟩ := idx_facts t
  show V m c main_arg1 (((cfg0.win 1).blk t).view.emb (ix2 r i)) = m ((c.tc : Thread nD τ).loc main_arg1) (ix2 x f)
  rw [V_main_arg1]
  refine congrArg _ ?_
  funext a; apply Fin.ext
  match a with
  | ⟨0, _⟩ => show win0_1.index t (0 : Fin 2) * 256 + 1 * r.val = x.val; omega
  | ⟨1, _⟩ => show win0_1.index t (1 : Fin 2) * 256 + 1 * i.val = f.val; omega

/-- The input weights' block at point `t`. -/
abbrev blkWih (c : Dev nD) (t : Fin cfg0.N) : FVec Ideal S2048x256 .bf16 := iblk m c 3 t
/-- The hidden weights' block at point `t`. -/
abbrev blkWhh (c : Dev nD) (t : Fin cfg0.N) : FVec Ideal S2048x256 .bf16 := iblk m c 4 t
/-- The bias's block at point `t`. -/
abbrev blkB (c : Dev nD) (t : Fin cfg0.N) : FVec Ideal S1x1x2048 .f32 := iblk m c 5 t

/-- The narrowed input weights the kernel reads are the input weights. -/
theorem V_main_v1_apply (c : Dev nD) (y : S8192x2048.Idx) : (V m c main_v1 : S8192x2048.Idx → EReal) y = aWih m c y := by
  have e : @Eq (FVec Ideal S8192x2048 .bf16) (V m c main_v1)
      (truncf .bf16 (m ((c.tc : Thread nD τ).loc main_arg3) : FVec Ideal S8192x2048 .f32) bitsLt_bf16_f32) := by
    dsimp only [Gen.V, Gen.hostOps0]; after_results
  rw [e]; rfl

/-- The narrowed hidden weights the kernel reads are the hidden weights. -/
theorem V_main_v2_apply (c : Dev nD) (y : S8192x2048.Idx) : (V m c main_v2 : S8192x2048.Idx → EReal) y = aWhh m c y := by
  have e : @Eq (FVec Ideal S8192x2048 .bf16) (V m c main_v2)
      (truncf .bf16 (m ((c.tc : Thread nD τ).loc main_arg4) : FVec Ideal S8192x2048 .f32) bitsLt_bf16_f32) := by
    dsimp only [Gen.V, Gen.hostOps0]; after_results
  rw [e]; rfl

/-- The reshaped bias the kernel reads, at (gate, 0, column), is the bias at the gate's column. -/
theorem V_main_v0_apply (c : Dev nD) (g : Fin 4) (j : Fin 2048) (x : Fin 8192) (hx : x.val = g.val * 2048 + j.val) :
    (V m c main_v0 : S4x1x2048.Idx → EReal) (ix3 g (0 : Fin 1) j) = aB m c (ix1 x) := by
  have e : (V m c main_v0 : S4x1x2048.Idx → EReal)
      = shapeCast S4x1x2048 (m ((c.tc : Thread nD τ).loc main_arg5) : FVec Ideal S8192 .f32) shapeCasts_S8192_S4x1x2048 := by
    dsimp only [Gen.V, Gen.hostOps0]; after_results; rfl
  rw [e]
  refine shapeCast_apply _ _ _ (ix1 x) ?_
  rw [Shape.rowMajor_val_three, Shape.rowMajor_val_one]
  show x.val = (g.val * 1 + 0) * 2048 + j.val
  omega

theorem blkWih_apply (c : Dev nD) (t : Fin cfg0.N) (j : Fin 2048) (i : Fin 256) (x : Fin 8192) (f : Fin 2048)
    (hx : x.val = t.val / 8 % 4 * 2048 + j.val) (hf : f.val = t.val % 8 * 256 + i.val) :
    blkWih m c t (ix2 j i) = aWih m c (ix2 x f) := by
  obtain ⟨-, -, -, -, e0, e1, -⟩ := idx_facts t
  show (V m c main_v1 : S8192x2048.Idx → EReal) (((cfg0.win 3).blk t).view.emb (ix2 j i)) = aWih m c (ix2 x f)
  refine (V_main_v1_apply m c _).trans ?_
  refine congrArg _ ?_
  funext a; apply Fin.ext
  match a with
  | ⟨0, _⟩ => show win0_3.index t (0 : Fin 2) * 2048 + 1 * j.val = x.val; omega
  | ⟨1, _⟩ => show win0_3.index t (1 : Fin 2) * 256 + 1 * i.val = f.val; omega

theorem blkWhh_apply (c : Dev nD) (t : Fin cfg0.N) (j : Fin 2048) (i : Fin 256) (x : Fin 8192) (f : Fin 2048)
    (hx : x.val = t.val / 8 % 4 * 2048 + j.val) (hf : f.val = t.val % 8 * 256 + i.val) :
    blkWhh m c t (ix2 j i) = aWhh m c (ix2 x f) := by
  obtain ⟨-, -, -, -, -, -, e0, e1, -⟩ := idx_facts t
  show (V m c main_v2 : S8192x2048.Idx → EReal) (((cfg0.win 4).blk t).view.emb (ix2 j i)) = aWhh m c (ix2 x f)
  refine (V_main_v2_apply m c _).trans ?_
  refine congrArg _ ?_
  funext a; apply Fin.ext
  match a with
  | ⟨0, _⟩ => show win0_4.index t (0 : Fin 2) * 2048 + 1 * j.val = x.val; omega
  | ⟨1, _⟩ => show win0_4.index t (1 : Fin 2) * 256 + 1 * i.val = f.val; omega

theorem blkB_apply (c : Dev nD) (t : Fin cfg0.N) (j : Fin 2048) (x : Fin 8192) (hx : x.val = t.val / 8 % 4 * 2048 + j.val) :
    blkB m c t (ix3 (0 : Fin 1) (0 : Fin 1) j) = aB m c (ix1 x) := by
  obtain ⟨-, -, -, -, -, -, -, -, e0, e1, e2⟩ := idx_facts t
  have hg : t.val / 8 % 4 < 4 := Nat.mod_lt _ (by decide)
  show (V m c main_v0 : S4x1x2048.Idx → EReal) (((cfg0.win 5).blk t).view.emb (ix3 (0 : Fin 1) (0 : Fin 1) j)) = aB m c (ix1 x)
  have hemb : ((cfg0.win 5).blk t).view.emb (ix3 (0 : Fin 1) (0 : Fin 1) j) = ix3 (⟨t.val / 8 % 4, hg⟩ : Fin 4) (0 : Fin 1) j := by
    funext a; apply Fin.ext
    match a with
    | ⟨0, _⟩ => show win0_5.index t (0 : Fin 3) * 1 + 1 * 0 = t.val / 8 % 4; omega
    | ⟨1, _⟩ => show win0_5.index t (1 : Fin 3) * 1 + 1 * 0 = 0; omega
    | ⟨2, _⟩ => show win0_5.index t (2 : Fin 3) * 2048 + 1 * j.val = j.val; omega
  rw [hemb]
  exact V_main_v0_apply m c ⟨t.val / 8 % 4, hg⟩ j x hx

/-! ## The step at one element -/

/-- What the accumulation starts from, at one element: zero at the first reduction tile, the slot's value otherwise. -/
theorem start_apply (p : Prop) [Decidable p] (prev : FVec Ideal S1x256x2048 .f32) (r : Fin 256) (j : Fin 2048) :
    (if p then k0_pay3 (F := Ideal) else prev) (ix3 (0 : Fin 1) r j) = if p then (0 : EReal) else prev (ix3 (0 : Fin 1) r j) := by
  by_cases h : p
  · rw [if_pos h, if_pos h]; exact pay3_apply r j
  · rw [if_neg h, if_neg h]

/-- The accumulation step over the point's own blocks, at one element: the two products are the point's shares of the
    input and hidden products, each block entry read back as the argument array's entry it is a copy of. -/
theorem accum_apply (c : Dev nD) (bi : Fin 16) (g : Fin 4) (k : Fin 8) (hn : bi.val * 32 + g.val * 8 + k.val < cfg0.N)
    (start : FVec Ideal S1x256x2048 .f32) (r : Fin 256) (j : Fin 2048) :
    k0_pay4 (F := Ideal) (blkX m c ⟨bi.val * 32 + g.val * 8 + k.val, hn⟩) (blkH m c ⟨bi.val * 32 + g.val * 8 + k.val, hn⟩)
        (blkWih m c ⟨bi.val * 32 + g.val * 8 + k.val, hn⟩) (blkWhh m c ⟨bi.val * 32 + g.val * 8 + k.val, hn⟩) start (ix3 (0 : Fin 1) r j)
      = (start (ix3 (0 : Fin 1) r j) + partA m c bi g k r j) + partB m c bi g k r j := by
  have hbi : bi.val < 16 := bi.isLt
  have hg : g.val < 4 := g.isLt
  have hk : k.val < 8 := k.isLt
  have h32 : (bi.val * 32 + g.val * 8 + k.val) / 32 = bi.val := by omega
  have h8 : (bi.val * 32 + g.val * 8 + k.val) / 8 % 4 = g.val := by omega
  have hm : (bi.val * 32 + g.val * 8 + k.val) % 8 = k.val := by omega
  refine (pay4_apply _ _ _ _ start r j).trans ?_
  unfold partA partB
  have eA : ∑ i : Fin 256, blkX m c ⟨bi.val * 32 + g.val * 8 + k.val, hn⟩ (ix2 r i) * blkWih m c ⟨bi.val * 32 + g.val * 8 + k.val, hn⟩ (ix2 j i)
      = ∑ i : Fin 256, aX m c (ix2 (rowOf bi r) (featOf k i)) * aWih m c (ix2 (Cert.Spec.col g j) (featOf k i)) :=
    Finset.sum_congr rfl fun i _ => by
      rw [blkX_apply m c ⟨bi.val * 32 + g.val * 8 + k.val, hn⟩ r i (rowOf bi r) (featOf k i)
            (by show bi.val * 256 + r.val = (bi.val * 32 + g.val * 8 + k.val) / 32 * 256 + r.val; rw [h32])
            (by show k.val * 256 + i.val = (bi.val * 32 + g.val * 8 + k.val) % 8 * 256 + i.val; rw [hm]),
          blkWih_apply m c ⟨bi.val * 32 + g.val * 8 + k.val, hn⟩ j i (Cert.Spec.col g j) (featOf k i)
            (by show g.val * 2048 + j.val = (bi.val * 32 + g.val * 8 + k.val) / 8 % 4 * 2048 + j.val; rw [h8])
            (by show k.val * 256 + i.val = (bi.val * 32 + g.val * 8 + k.val) % 8 * 256 + i.val; rw [hm])]
  have eB : ∑ i : Fin 256, blkH m c ⟨bi.val * 32 + g.val * 8 + k.val, hn⟩ (ix2 r i) * blkWhh m c ⟨bi.val * 32 + g.val * 8 + k.val, hn⟩ (ix2 j i)
      = ∑ i : Fin 256, aH m c (ix2 (rowOf bi r) (featOf k i)) * aWhh m c (ix2 (Cert.Spec.col g j) (featOf k i)) :=
    Finset.sum_congr rfl fun i _ => by
      rw [blkH_apply m c ⟨bi.val * 32 + g.val * 8 + k.val, hn⟩ r i (rowOf bi r) (featOf k i)
            (by show bi.val * 256 + r.val = (bi.val * 32 + g.val * 8 + k.val) / 32 * 256 + r.val; rw [h32])
            (by show k.val * 256 + i.val = (bi.val * 32 + g.val * 8 + k.val) % 8 * 256 + i.val; rw [hm]),
          blkWhh_apply m c ⟨bi.val * 32 + g.val * 8 + k.val, hn⟩ j i (Cert.Spec.col g j) (featOf k i)
            (by show g.val * 2048 + j.val = (bi.val * 32 + g.val * 8 + k.val) / 8 % 4 * 2048 + j.val; rw [h8])
            (by show k.val * 256 + i.val = (bi.val * 32 + g.val * 8 + k.val) % 8 * 256 + i.val; rw [hm])]
  rw [eA, eB]

/-- The step as the body computes it, over the blocks named by their literal types. -/
theorem slotStep_eq (c : Dev nD) (n : ℕ) (hn : n < cfg0.N) (prev : Vec Ideal S1x256x2048 .f32) :
    slotStep (F := Ideal) m c n hn prev
      = if n % 8 = 7 then
          k0_pay5 (k0_pay4 (blkX m c ⟨n, hn⟩) (blkH m c ⟨n, hn⟩) (blkWih m c ⟨n, hn⟩) (blkWhh m c ⟨n, hn⟩)
            (if n % 8 = 0 then (k0_pay3 (F := Ideal)) else prev)) (blkB m c ⟨n, hn⟩)
        else
          k0_pay4 (blkX m c ⟨n, hn⟩) (blkH m c ⟨n, hn⟩) (blkWih m c ⟨n, hn⟩) (blkWhh m c ⟨n, hn⟩)
            (if n % 8 = 0 then (k0_pay3 (F := Ideal)) else prev) := rfl

end Step

open Step

theorem slotStep_apply (c : Dev nD) (bi : Fin 16) (g : Fin 4) (k : Fin 8) (hn : bi.val * 32 + g.val * 8 + k.val < cfg0.N)
    (prev : Vec Ideal S1x256x2048 .f32) (r : Fin 256) (j : Fin 2048) :
    slotStep (F := Ideal) m c (bi.val * 32 + g.val * 8 + k.val) hn prev (ix3 (0 : Fin 1) r j)
      = if k.val = 7 then
          (((if k.val = 0 then (0 : EReal) else prev (ix3 (0 : Fin 1) r j)) + partA m c bi g k r j) + partB m c bi g k r j)
            + aB m c (ix1 (Cert.Spec.col g j))
        else
          ((if k.val = 0 then (0 : EReal) else prev (ix3 (0 : Fin 1) r j)) + partA m c bi g k r j) + partB m c bi g k r j := by
  have hbi : bi.val < 16 := bi.isLt
  have hg : g.val < 4 := g.isLt
  have hk : k.val < 8 := k.isLt
  have h8 : (bi.val * 32 + g.val * 8 + k.val) / 8 % 4 = g.val := by omega
  have hm : (bi.val * 32 + g.val * 8 + k.val) % 8 = k.val := by omega
  rw [slotStep_eq, hm]
  by_cases h7 : k.val = 7
  · rw [if_pos h7, if_pos h7]
    refine (pay5_apply _ _ r j).trans ?_
    rw [accum_apply m c bi g k hn _ r j, start_apply,
      blkB_apply m c ⟨bi.val * 32 + g.val * 8 + k.val, hn⟩ j (Cert.Spec.col g j)
        (by show g.val * 2048 + j.val = (bi.val * 32 + g.val * 8 + k.val) / 8 % 4 * 2048 + j.val; rw [h8])]
  · rw [if_neg h7, if_neg h7]
    rw [accum_apply m c bi g k hn _ r j, start_apply]

end Cert.KernelIdeal.HandValue

end
-- ==== Proof.KI.SlotClosed.lean ====
/-
  Once a gate's eight reduction tiles of a batch tile are done, and until the next batch tile resets it, the gate's
  scratch slot holds the complete pre-activation of that gate on the tile's rows.

  The eight points of a gate's run add their shares one after the other: the slot after the run's point k holds the
  left-nested sum of the shares of the reduction tiles 0 … k over zero, and the last point puts the bias on top. The
  points that follow in the same batch tile belong to other gates and leave the slot alone. Addition over the
  extended reals is commutative and associative, so the nested sum regroups into the input shares, the hidden shares
  and the bias; and the eight shares of 256 features each make up the sum over all 2048 features, feature k·256 + i
  being feature i of tile k.
-/
import proofs.«168793_j10007273800256_1_alg».proof.Proof.KI.StepApply
import Mathlib.Data.Fintype.BigOperators
import Mathlib.Algebra.BigOperators.Fin
import Mathlib.Logic.Equiv.Fin.Basic

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-! ## The algebra: nested shares, regrouped and re-indexed -/

/-- The left-nested sum a run builds: the shares of tile 0 over zero, then the shares of each further tile on top. -/
def nest (A B : ℕ → EReal) : ℕ → EReal
  | 0 => ((0 : EReal) + A 0) + B 0
  | k + 1 => (nest A B k + A (k + 1)) + B (k + 1)

/-- The nested sum through tile k is the sum of the first kind of shares plus the sum of the second kind. -/
theorem nest_eq (A B : ℕ → EReal) (k : ℕ) :
    nest A B k = (∑ i ∈ Finset.range (k + 1), A i) + ∑ i ∈ Finset.range (k + 1), B i := by
  induction k with
  | zero => simp [nest]
  | succ k ih =>
    rw [nest, ih, Finset.sum_range_succ A (k + 1), Finset.sum_range_succ B (k + 1)]
    ac_rfl

/-- The eight tiles of 256 features are the 2048 features: feature i of tile k is feature k·256 + i, and every
    feature is met exactly once. -/
theorem sum_featOf (f : Fin 2048 → EReal) : ∑ k : Fin 8, ∑ i : Fin 256, f (featOf k i) = ∑ q : Fin 2048, f q := by
  rw [← Fintype.sum_prod_type']
  refine Fintype.sum_equiv (finProdFinEquiv.trans (finCongr (by norm_num))) _ _ ?_
  rintro ⟨k, i⟩
  congr 1
  apply Fin.ext
  simp [featOf, finProdFinEquiv]
  omega

/-- A share indexed by a natural number: the share of tile k when k is one of the eight tiles, zero beyond. -/
def ext8 (A : Fin 8 → EReal) (k : ℕ) : EReal := if h : k < 8 then A ⟨k, h⟩ else 0

theorem ext8_of_lt (A : Fin 8 → EReal) (k : ℕ) (h : k < 8) : ext8 A k = A ⟨k, h⟩ := dif_pos h

theorem sum_range_ext8 (A : Fin 8 → EReal) : ∑ k ∈ Finset.range 8, ext8 A k = ∑ k : Fin 8, A k := by
  rw [← Fin.sum_univ_eq_sum_range]
  exact Finset.sum_congr rfl (fun k _ => ext8_of_lt A k.val k.isLt)

/-! ## One point of a gate's run, at an index given up to an equation -/

theorem slotStep_apply_nat (c : Dev nD) (bi : Fin 16) (g : Fin 4) (k : ℕ) (hk : k < 8) (n : ℕ) (hn : n < cfg0.N)
    (e : n = bi.val * 32 + g.val * 8 + k) (prev : Vec Ideal S1x256x2048 .f32) (r : Fin 256) (j : Fin 2048) :
    slotStep (F := Ideal) m c n hn prev (ix3 (0 : Fin 1) r j)
      = if k = 7 then
          (((if k = 0 then (0 : EReal) else prev (ix3 (0 : Fin 1) r j)) + ext8 (fun k => partA m c bi g k r j) k)
            + ext8 (fun k => partB m c bi g k r j) k) + aB m c (ix1 (Cert.Spec.col g j))
        else
          ((if k = 0 then (0 : EReal) else prev (ix3 (0 : Fin 1) r j)) + ext8 (fun k => partA m c bi g k r j) k)
            + ext8 (fun k => partB m c bi g k r j) k := by
  subst e
  rw [ext8_of_lt _ k hk, ext8_of_lt _ k hk]
  exact slotStep_apply m c bi g ⟨k, hk⟩ hn prev r j

/-! ## The run of a gate: points bi·32 + g·8 + k, k = 0 … 7 -/

/-- Before the last point of the run the slot holds the nested sum of the shares so far. -/
theorem slot_run (c : Dev nD) (bi : Fin 16) (g : Fin 4) (r : Fin 256) (j : Fin 2048) (k : ℕ) (hk : k < 7) :
    ∀ (n : ℕ) (hn : n < cfg0.N), n = bi.val * 32 + g.val * 8 + k →
      slotAt (F := Ideal) m c n hn g (ix3 (0 : Fin 1) r j)
        = nest (ext8 (fun k => partA m c bi g k r j)) (ext8 (fun k => partB m c bi g k r j)) k := by
  have hg4 := g.isLt
  induction k with
  | zero =>
    intro n hn e
    cases n with
    | zero =>
      rw [slotAt_zero, slotStep_apply_nat m c bi g 0 (by omega) 0 hn e]
      simp [nest]
    | succ n =>
      have hg : (n + 1) / 8 % 4 = g.val := by omega
      rw [slotAt_succ_hit m c n hn g hg, slotStep_apply_nat m c bi g 0 (by omega) (n + 1) hn e]
      simp [nest]
  | succ k ih =>
    intro n hn e
    cases n with
    | zero => omega
    | succ n =>
      have hg : (n + 1) / 8 % 4 = g.val := by omega
      rw [slotAt_succ_hit m c n hn g hg, slotStep_apply_nat m c bi g (k + 1) (by omega) (n + 1) hn e,
        if_neg (by omega), if_neg (by omega), ih (by omega) n (Nat.lt_of_succ_lt hn) (by omega)]
      rfl

/-- After the last point of the run the slot holds the nested sum of all eight tiles' shares, and the bias on top. -/
theorem slot_run_last (c : Dev nD) (bi : Fin 16) (g : Fin 4) (r : Fin 256) (j : Fin 2048)
    (hn : bi.val * 32 + g.val * 8 + 7 < cfg0.N) :
    slotAt (F := Ideal) m c (bi.val * 32 + g.val * 8 + 7) hn g (ix3 (0 : Fin 1) r j)
      = nest (ext8 (fun k => partA m c bi g k r j)) (ext8 (fun k => partB m c bi g k r j)) 7
          + aB m c (ix1 (Cert.Spec.col g j)) := by
  have hg4 := g.isLt
  have hg : (bi.val * 32 + g.val * 8 + 6 + 1) / 8 % 4 = g.val := by omega
  show slotAt (F := Ideal) m c (bi.val * 32 + g.val * 8 + 6 + 1) hn g (ix3 (0 : Fin 1) r j) = _
  rw [slotAt_succ_hit m c _ hn g hg, slotStep_apply_nat m c bi g 7 (by omega) _ hn rfl, if_pos rfl, if_neg (by omega),
    slot_run m c bi g r j 6 (by omega) _ (Nat.lt_of_succ_lt hn) rfl]
  rfl

/-! ## The rest of the batch tile: other gates' points leave the slot alone -/

theorem slot_carry (c : Dev nD) (bi : Fin 16) (g : Fin 4) (hn7 : bi.val * 32 + g.val * 8 + 7 < cfg0.N) (d : ℕ) :
    ∀ (n : ℕ) (hn : n < cfg0.N), n = bi.val * 32 + g.val * 8 + 7 + d → n < (bi.val + 1) * 32 →
      slotAt (F := Ideal) m c n hn g = slotAt (F := Ideal) m c (bi.val * 32 + g.val * 8 + 7) hn7 g := by
  have hg4 := g.isLt
  induction d with
  | zero =>
    intro n hn e _
    subst e
    rfl
  | succ d ih =>
    intro n hn e hhi
    cases n with
    | zero => omega
    | succ n =>
      have hg : ¬ (n + 1) / 8 % 4 = g.val := by omega
      rw [slotAt_succ_miss m c n hn g hg]
      exact ih n (Nat.lt_of_succ_lt hn) (by omega) (by omega)

/-! ## The closed slot -/

theorem slot_closed (c : Dev nD) (bi : Fin 16) (g : Fin 4) (n : ℕ) (hn : n < cfg0.N)
    (hlo : bi.val * 32 + g.val * 8 + 7 ≤ n) (hhi : n < (bi.val + 1) * 32) (r : Fin 256) (j : Fin 2048) :
    slotAt (F := Ideal) m c n hn g (ix3 (0 : Fin 1) r j)
      = Cert.Spec.rawGate (aX m c) (aH m c) (aWih m c) (aWhh m c) (aB m c) (rowOf bi r) (Cert.Spec.col g j) := by
  have hn7 : bi.val * 32 + g.val * 8 + 7 < cfg0.N := lt_of_le_of_lt hlo hn
  rw [slot_carry m c bi g hn7 (n - (bi.val * 32 + g.val * 8 + 7)) n hn (by omega) hhi,
    slot_run_last m c bi g r j hn7, nest_eq, sum_range_ext8, sum_range_ext8]
  unfold Cert.Spec.rawGate partA partB
  rw [sum_featOf (fun q => aX m c (ix2 (rowOf bi r) q) * aWih m c (ix2 (Cert.Spec.col g j) q)),
    sum_featOf (fun q => aH m c (ix2 (rowOf bi r) q) * aWhh m c (ix2 (Cert.Spec.col g j) q))]
  ac_rfl

end Cert.KernelIdeal.HandValue

end
-- ==== Proof.KI.Final.lean ====
/-
  The two result arrays after the run: every 256-row block is written back once, at the last point of its batch
  tile, with the cell and hidden blocks computed from the four complete pre-activation slots; together the blocks are
  the specification's whole arrays.

  At one element the body's arithmetic is the specification's: with f, i, o, g the four slots' entries at row r and
  column j, the cell block holds hsig(f)·c₀ + hsig(i)·htanh(g) and the hidden block hsig(o)·htanh of that, the
  literals being the same float words on both sides. At the last point of batch tile bi each slot's entry is the
  complete pre-activation of its gate on row bi·256 + r, and the old cell state's block holds rows bi·256 … of c₀;
  so the two blocks are rows bi·256 … of the specification's arrays. Row r of a result is covered by the block
  written back at point (r / 256)·32 + 31, and points that write nothing back change nothing.
-/
import proofs.«168793_j10007273800256_1_alg».proof.Proof.KI.SlotClosed
import Idealize.ShloMosaic.Lib.Pipeline.Value
import Idealize.ShloMosaic.Lib.ValueLayout

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-! ## The body's arithmetic at one element -/

/-- The new cell state's block at row `r`, column `j`: the forget gate's hard sigmoid times the old cell state plus the
    input gate's hard sigmoid times the candidate's hard tanh, each gate read from its slot at `(0, r, j)`. -/
theorem cell_pay_apply (f i g : Vec Ideal S1x256x2048 .f32) (c0 : Vec Ideal S256x2048 .f32) (r : Fin 256) (j : Fin 2048) :
    k0_pay1 f i g c0 (ix2 r j)
      = Cert.Spec.hsig (f (ix3 (0 : Fin 1) r j)) * c0 (ix2 r j)
        + Cert.Spec.hsig (i (ix3 (0 : Fin 1) r j)) * Cert.Spec.htanh (g (ix3 (0 : Fin 1) r j)) := by
  unfold k0_pay1 Cert.Spec.hsig Cert.Spec.htanh
  simp only [addf_apply, mulf_apply, minimumf_apply, maximumf_apply, divf_apply, broadcast_apply, shapeCast_1ab_ab_apply]
  rfl

/-- The output gate's slot over six, at row `r`, column `j`. -/
theorem o6_pay_apply (o : Vec Ideal S1x256x2048 .f32) (r : Fin 256) (j : Fin 2048) :
    k0_pay2 o (ix2 r j) = Ideal.div (o (ix3 (0 : Fin 1) r j)) (Ideal.ofBits .f32 0x40C00000#32) := by
  unfold k0_pay2
  simp only [divf_apply, broadcast_apply, shapeCast_1ab_ab_apply]
  rfl

/-- The new hidden state's block at row `r`, column `j`: the clipped (output gate over six, plus one half) times the
    hard tanh of the new cell state. -/
theorem hid_pay_apply (c1 o6 : Vec Ideal S256x2048 .f32) (r : Fin 256) (j : Fin 2048) :
    k0_pay6 c1 o6 (Scalar.ofBits .f32 0x3F000000#32) (ix2 r j)
      = min (Ideal.ofBits .f32 0x3F800000#32) (max (Ideal.ofBits .f32 0x00000000#32) (o6 (ix2 r j) + Ideal.ofBits .f32 0x3F000000#32))
        * Cert.Spec.htanh (c1 (ix2 r j)) := by
  unfold k0_pay6 Cert.Spec.htanh
  simp only [addf_apply, mulf_apply, minimumf_apply, maximumf_apply, broadcast_apply]
  rfl

/-! ## Where the blocks sit -/

/-- At every grid point the old cell state's block and the two result blocks are the block of the point's batch tile:
    block row `t / 32`, block column 0. -/
theorem blk_index_facts : ∀ t : Fin cfg0.N,
    win0_2.index t (0 : Fin 2) = t.val / 32 ∧ win0_2.index t (1 : Fin 2) = 0
    ∧ win0_6.index t (0 : Fin 2) = t.val / 32 ∧ win0_6.index t (1 : Fin 2) = 0
    ∧ win0_7.index t (0 : Fin 2) = t.val / 32 ∧ win0_7.index t (1 : Fin 2) = 0 :=
  (by decide +kernel : ∀ t : Fin grid0.N, _)

/-- The old cell state's block at a point of batch tile `bi` holds rows `bi · 256 …` of the old cell state. -/
theorem oldcell_apply (c : Dev nD) (t : Fin cfg0.N) (bi : Fin 16) (hb : t.val / 32 = bi.val) (r : Fin 256) (j : Fin 2048) :
    (iblk m c 2 t : Vec Ideal S256x2048 .f32) (ix2 r j) = aC m c (ix2 (rowOf bi r) j) := by
  obtain ⟨e0, e1, -⟩ := blk_index_facts t
  unfold iblk
  rw [View.read_apply]
  show V m c main_arg2 _ = m ((c.tc : Thread nD τ).loc main_arg2) _
  rw [V_main_arg2]
  congr 1
  funext a
  apply Fin.ext
  match a with
  | ⟨0, _⟩ => show win0_2.index t (0 : Fin 2) * 256 + 1 * r.val = bi.val * 256 + r.val; rw [e0, hb]; omega
  | ⟨1, _⟩ => show win0_2.index t (1 : Fin 2) * 2048 + 1 * j.val = j.val; rw [e1]; omega

/-! ## The two blocks stored at the last point of a batch tile -/

/-- At the last point of batch tile `bi` all four slots hold the tile's complete pre-activations, so the cell block
    the body computes there is the specification's new cell state on the tile's rows. -/
theorem cellOut_apply (c : Dev nD) (bi : Fin 16) (n : ℕ) (hn : n < cfg0.N) (hnb : n = bi.val * 32 + 31) (r : Fin 256) (j : Fin 2048) :
    cellOut (F := Ideal) m c n hn (ix2 r j)
      = Cert.Spec.specC (aX m c) (aH m c) (aC m c) (aWih m c) (aWhh m c) (aB m c) (ix2 (rowOf bi r) j) := by
  unfold cellOut
  refine (cell_pay_apply (slotAt m c n hn 0) (slotAt m c n hn 1) (slotAt m c n hn 3) (iblk m c 2 ⟨n, hn⟩) r j).trans ?_
  have hbi : bi.val < 16 := bi.isLt
  rw [slot_closed m c bi 0 n hn (by subst hnb; show bi.val * 32 + 0 * 8 + 7 ≤ _; omega) (by subst hnb; omega) r j,
    slot_closed m c bi 1 n hn (by subst hnb; show bi.val * 32 + 1 * 8 + 7 ≤ _; omega) (by subst hnb; omega) r j,
    slot_closed m c bi 3 n hn (by subst hnb; show bi.val * 32 + 3 * 8 + 7 ≤ _; omega) (by subst hnb; omega) r j,
    oldcell_apply m c ⟨n, hn⟩ bi (by show n / 32 = bi.val; omega) r j]
  rfl

/-- Likewise the hidden block is the specification's new hidden state on the tile's rows. -/
theorem hidOut_apply (c : Dev nD) (bi : Fin 16) (n : ℕ) (hn : n < cfg0.N) (hnb : n = bi.val * 32 + 31) (r : Fin 256) (j : Fin 2048) :
    hidOut (F := Ideal) m c n hn (ix2 r j)
      = Cert.Spec.specH (aX m c) (aH m c) (aC m c) (aWih m c) (aWhh m c) (aB m c) (ix2 (rowOf bi r) j) := by
  unfold hidOut
  refine (hid_pay_apply (cellOut m c n hn) (k0_pay2 (slotAt m c n hn 2)) r j).trans ?_
  have hbi : bi.val < 16 := bi.isLt
  rw [o6_pay_apply, cellOut_apply m c bi n hn hnb r j,
    slot_closed m c bi 2 n hn (by subst hnb; show bi.val * 32 + 2 * 8 + 7 ≤ _; omega) (by subst hnb; omega) r j]
  rfl

/-! ## From the blocks to the arrays -/

/-- What a point that writes the cell result back writes is its block of the specification's new cell state. -/
theorem flushed_c_eq (c : Dev nD) (t : Fin cfg0.N) (hf : (cfg0.win 7).flush t = true) :
    (dats (F := Ideal) m 0 c).flushed 7 t
      = ((cfg0.win 7).blk t).view.read (Elt Ideal) (Cert.Spec.specC (aX m c) (aH m c) (aC m c) (aWih m c) (aWhh m c) (aB m c)) := by
  have ht : t.val % 32 = 31 := (flush0_7 t).mp hf
  have hN : t.val < 512 := Nat.lt_of_lt_of_eq t.isLt (show cfg0.N = 512 from N_0)
  obtain ⟨-, -, -, -, e0, e1⟩ := blk_index_facts t
  show (cfg0.win 7).cut (grid0.coords t) ((dats m 0 c).after 7 t) = _
  rw [after0_7]
  funext y
  have hy0 : (y 0).val < 256 := (y 0).isLt
  have hy1 : (y 1).val < 2048 := (y 1).isLt
  have hx : (cfg0.win 7).xinj (grid0.coords t) y = ix2 (⟨(y 0).val, hy0⟩ : Fin 256) (⟨(y 1).val, hy1⟩ : Fin 2048) := by
    funext a
    match a with
    | ⟨0, _⟩ => rfl
    | ⟨1, _⟩ => rfl
  have he : ((cfg0.win 7).blk t).view.emb y
      = ix2 (rowOf ⟨t.val / 32, by omega⟩ (⟨(y 0).val, hy0⟩ : Fin 256)) (⟨(y 1).val, hy1⟩ : Fin 2048) := by
    funext a
    apply Fin.ext
    match a with
    | ⟨0, _⟩ => show win0_7.index t (0 : Fin 2) * 256 + 1 * (y 0).val = t.val / 32 * 256 + (y 0).val; rw [e0]; omega
    | ⟨1, _⟩ => show win0_7.index t (1 : Fin 2) * 2048 + 1 * (y 1).val = (y 1).val; rw [e1]; omega
  show cellOut m c t.val t.isLt ((cfg0.win 7).xinj (grid0.coords t) y)
    = Cert.Spec.specC (aX m c) (aH m c) (aC m c) (aWih m c) (aWhh m c) (aB m c) (((cfg0.win 7).blk t).view.emb y)
  rw [hx, he]
  exact cellOut_apply m c ⟨t.val / 32, by omega⟩ t.val t.isLt (by show t.val = t.val / 32 * 32 + 31; omega) _ _

/-- An index of the cell result is in point `t`'s block iff each coordinate is in the block's range on its axis. -/
theorem mem_blk_c (t : Fin cfg0.N) (i : S4096x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v3_1).slice (win0_7.rect t)).set ↔ _
  rw [View.set_slice_whole, Rect.mem_set_unit]
  exact Iff.rfl

/-- Every entry of the cell result lies in the block written back at the last point of its row's batch tile. -/
theorem cover_c (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  have hlt : (i 0).val / 256 * 32 + 31 < cfg0.N := by rw [show cfg0.N = 512 from N_0]; omega
  obtain ⟨-, -, -, -, e0, e1⟩ := blk_index_facts ⟨(i 0).val / 256 * 32 + 31, hlt⟩
  have e0' : win0_7.index ⟨(i 0).val / 256 * 32 + 31, hlt⟩ (0 : Fin 2) = (i 0).val / 256 := by
    rw [e0]; show ((i 0).val / 256 * 32 + 31) / 32 = _; omega
  refine ⟨⟨(i 0).val / 256 * 32 + 31, hlt⟩, (flush0_7 _).mpr (by show ((i 0).val / 256 * 32 + 31) % 32 = 31; omega), ?_⟩
  rw [mem_blk_c]
  intro a
  match a with
  | ⟨0, _⟩ =>
    show win0_7.index ⟨(i 0).val / 256 * 32 + 31, hlt⟩ (0 : Fin 2) * 256 ≤ (i 0).val
      ∧ (i 0).val < win0_7.index ⟨(i 0).val / 256 * 32 + 31, hlt⟩ (0 : Fin 2) * 256 + 256
    rw [e0']; omega
  | ⟨1, _⟩ =>
    show win0_7.index ⟨(i 0).val / 256 * 32 + 31, hlt⟩ (1 : Fin 2) * 2048 ≤ (i 1).val
      ∧ (i 1).val < win0_7.index ⟨(i 0).val / 256 * 32 + 31, hlt⟩ (1 : Fin 2) * 2048 + 2048
    rw [e1]; omega

/-- What a point that writes the hidden result back writes is its block of the specification's new hidden state. -/
theorem flushed_h_eq (c : Dev nD) (t : Fin cfg0.N) (hf : (cfg0.win 6).flush t = true) :
    (dats (F := Ideal) m 0 c).flushed 6 t
      = ((cfg0.win 6).blk t).view.read (Elt Ideal) (Cert.Spec.specH (aX m c) (aH m c) (aC m c) (aWih m c) (aWhh m c) (aB m c)) := by
  have ht : t.val % 32 = 31 := (flush0_6 t).mp hf
  have hN : t.val < 512 := Nat.lt_of_lt_of_eq t.isLt (show cfg0.N = 512 from N_0)
  obtain ⟨-, -, e0, e1, -, -⟩ := blk_index_facts t
  show (cfg0.win 6).cut (grid0.coords t) ((dats m 0 c).after 6 t) = _
  rw [after0_6]
  funext y
  have hy0 : (y 0).val < 256 := (y 0).isLt
  have hy1 : (y 1).val < 2048 := (y 1).isLt
  have hx : (cfg0.win 6).xinj (grid0.coords t) y = ix2 (⟨(y 0).val, hy0⟩ : Fin 256) (⟨(y 1).val, hy1⟩ : Fin 2048) := by
    funext a
    match a with
    | ⟨0, _⟩ => rfl
    | ⟨1, _⟩ => rfl
  have he : ((cfg0.win 6).blk t).view.emb y
      = ix2 (rowOf ⟨t.val / 32, by omega⟩ (⟨(y 0).val, hy0⟩ : Fin 256)) (⟨(y 1).val, hy1⟩ : Fin 2048) := by
    funext a
    apply Fin.ext
    match a with
    | ⟨0, _⟩ => show win0_6.index t (0 : Fin 2) * 256 + 1 * (y 0).val = t.val / 32 * 256 + (y 0).val; rw [e0]; omega
    | ⟨1, _⟩ => show win0_6.index t (1 : Fin 2) * 2048 + 1 * (y 1).val = (y 1).val; rw [e1]; omega
  show hidOut m c t.val t.isLt ((cfg0.win 6).xinj (grid0.coords t) y)
    = Cert.Spec.specH (aX m c) (aH m c) (aC m c) (aWih m c) (aWhh m c) (aB m c) (((cfg0.win 6).blk t).view.emb y)
  rw [hx, he]
  exact hidOut_apply m c ⟨t.val / 32, by omega⟩ t.val t.isLt (by show t.val = t.val / 32 * 32 + 31; omega) _ _

/-- An index of the hidden result is in point `t`'s block iff each coordinate is in the block's range on its axis. -/
theorem mem_blk_h (t : Fin cfg0.N) (i : S4096x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v3_0).slice (win0_6.rect t)).set ↔ _
  rw [View.set_slice_whole, Rect.mem_set_unit]
  exact Iff.rfl

/-- Every entry of the hidden result lies in the block written back at the last point of its row's batch tile. -/
theorem cover_h (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  have hlt : (i 0).val / 256 * 32 + 31 < cfg0.N := by rw [show cfg0.N = 512 from N_0]; omega
  obtain ⟨-, -, e0, e1, -, -⟩ := blk_index_facts ⟨(i 0).val / 256 * 32 + 31, hlt⟩
  have e0' : win0_6.index ⟨(i 0).val / 256 * 32 + 31, hlt⟩ (0 : Fin 2) = (i 0).val / 256 := by
    rw [e0]; show ((i 0).val / 256 * 32 + 31) / 32 = _; omega
  refine ⟨⟨(i 0).val / 256 * 32 + 31, hlt⟩, (flush0_6 _).mpr (by show ((i 0).val / 256 * 32 + 31) % 32 = 31; omega), ?_⟩
  rw [mem_blk_h]
  intro a
  match a with
  | ⟨0, _⟩ =>
    show win0_6.index ⟨(i 0).val / 256 * 32 + 31, hlt⟩ (0 : Fin 2) * 256 ≤ (i 0).val
      ∧ (i 0).val < win0_6.index ⟨(i 0).val / 256 * 32 + 31, hlt⟩ (0 : Fin 2) * 256 + 256
    rw [e0']; omega
  | ⟨1, _⟩ =>
    show win0_6.index ⟨(i 0).val / 256 * 32 + 31, hlt⟩ (1 : Fin 2) * 2048 ≤ (i 1).val
      ∧ (i 1).val < win0_6.index ⟨(i 0).val / 256 * 32 + 31, hlt⟩ (1 : Fin 2) * 2048 + 2048
    rw [e1]; omega

/-- After the run the hidden result holds the specification's new hidden state. -/
theorem final_h (c : Dev nD) :
    (dats (F := Ideal) m 0 c).arrAt 6 cfg0.N
      = Cert.Spec.specH (aX m c) (aH m c) (aC m c) (aWih m c) (aWhh m c) (aB m c) :=
  (dats (F := Ideal) m 0 c).arrAt_eq_of_cover 6 (Cert.Spec.specH (aX m c) (aH m c) (aC m c) (aWih m c) (aWhh m c) (aB m c))
    (fun t hf => flushed_h_eq m c t hf) cover_h

/-- After the run the cell result holds the specification's new cell state. -/
theorem final_c (c : Dev nD) :
    (dats (F := Ideal) m 0 c).arrAt 7 cfg0.N
      = Cert.Spec.specC (aX m c) (aH m c) (aC m c) (aWih m c) (aWhh m c) (aB m c) :=
  (dats (F := Ideal) m 0 c).arrAt_eq_of_cover 7 (Cert.Spec.specC (aX m c) (aH m c) (aC m c) (aWih m c) (aWhh m c) (aB m c))
    (fun t hf => flushed_c_eq m c t hf) cover_c

end Cert.KernelIdeal.HandValue

end
-- ==== Proof.KI.Value.lean ====
/-
  The idealized kernel's run with its two results named: the new hidden state and the new cell state of the
  specification, as functions of the six argument arrays at launch, which the run leaves unchanged.
-/
import proofs.«168793_j10007273800256_1_alg».proof.Proof.KI.Body
import proofs.«168793_j10007273800256_1_alg».proof.Proof.KI.Final

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

variable (ρ : Dev nD → PrngReg)

theorem value_run : θ_run defs (onTc (τ := τ) (main (F := Ideal))) ⟨m, fun _ => 0, ρ⟩ (fun r => ∀ c : Dev nD,
      r.2.mem ((c.tc : Thread nD τ).loc main_v3_0) = Cert.Spec.specH (aX m c) (aH m c) (aC m c) (aWih m c) (aWhh m c) (aB m c)
      ∧ r.2.mem ((c.tc : Thread nD τ).loc main_v3_1) = Cert.Spec.specC (aX m c) (aH m c) (aC m c) (aWih m c) (aWhh m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_h m c), ((h c).1 7).trans (final_c m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main (F := Ideal) m ρ)

end Cert.KernelIdeal.HandValue

end
-- ==== Proof.RefValue.lean ====
/-
  The reference program's two results, read one operation at a time, are the specification's hidden and cell
  arrays: its two `dot_general`s are the two sums of products over the feature axis, the bias is broadcast along the
  batch axis, the four gates are the four column ranges of the stacked pre-activation, and the clips are the hard
  sigmoid and the hard tanh.
-/
import proofs.«168793_j10007273800256_1_alg».proof.Proof.Gen.ReferenceIdeal.Run
import proofs.«168793_j10007273800256_1_alg».proof.Proof.Gen.ReferenceIdeal.Read
import proofs.«168793_j10007273800256_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## The stacked pre-activation -/

/-- The left operand of the input product is read at row `r`, feature `k`. -/
theorem lidx0_eq (r : Fin 4096) (q : Fin 8192) (k : Fin 2048) : lidx_main_v0 (ix2 r q) k = ix2 r k :=
  funext fun a => by match a with | ⟨0, _⟩ => rfl | ⟨1, _⟩ => rfl
/-- The right operand of the input product is read at weight row `q`, feature `k`. -/
theorem ridx0_eq (r : Fin 4096) (q : Fin 8192) (k : Fin 2048) : ridx_main_v0 (ix2 r q) k = ix2 q k :=
  funext fun a => by match a with | ⟨0, _⟩ => rfl | ⟨1, _⟩ => rfl
/-- The left operand of the hidden product is read at row `r`, feature `k`. -/
theorem lidx1_eq (r : Fin 4096) (q : Fin 8192) (k : Fin 2048) : lidx_main_v1 (ix2 r q) k = ix2 r k :=
  funext fun a => by match a with | ⟨0, _⟩ => rfl | ⟨1, _⟩ => rfl
/-- The right operand of the hidden product is read at weight row `q`, feature `k`. -/
theorem ridx1_eq (r : Fin 4096) (q : Fin 8192) (k : Fin 2048) : ridx_main_v1 (ix2 r q) k = ix2 q k :=
  funext fun a => by match a with | ⟨0, _⟩ => rfl | ⟨1, _⟩ => rfl
/-- The bias, broadcast along the batch axis, is read at the gate column alone. -/
theorem bias_idx_eq (r : Fin 4096) (q : Fin 8192) : idx_main_v2 (idx_main_v3 (ix2 r q)) = ix1 q :=
  funext fun a => by match a with | ⟨0, _⟩ => rfl

/-- Entry `(r, q)` of the stacked pre-activation: the hidden product plus the bias, plus the input product, in the
    specification's order of addition. -/
theorem pre_apply (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (q : Fin 8192) :
    val_main_v5 (F := Ideal) x0 x1 x3 x4 x5 (ix2 r q) = Cert.Spec.rawGate x0 x1 x3 x4 x5 r q := by
  rw [val_main_v5_apply, val_main_v4_apply, val_main_v1_apply, val_main_v3_apply, val_main_v2_apply, val_main_v0_apply]
  simp only [lidx0_eq, ridx0_eq, lidx1_eq, ridx1_eq, bias_idx_eq, Ideal.addf_def]
  rfl

/-! ## The four gates are the four column ranges -/

/-- Column `j` of the first range is column `j` of the stacked axis. -/
theorem idx6_eq (r : Fin 4096) (j : Fin 2048) : idx_main_v6 (ix2 r j) = ix2 r (Cert.Spec.col 0 j) :=
  funext fun a => Fin.ext (by
    match a with
    | ⟨0, _⟩ => rfl
    | ⟨1, _⟩ => show j.val = 0 * 2048 + j.val; omega)
/-- Column `j` of the second range is column `2048 + j` of the stacked axis. -/
theorem idx7_eq (r : Fin 4096) (j : Fin 2048) : idx_main_v7 (ix2 r j) = ix2 r (Cert.Spec.col 1 j) :=
  funext fun a => Fin.ext (by
    match a with
    | ⟨0, _⟩ => rfl
    | ⟨1, _⟩ => show 2048 + j.val = 1 * 2048 + j.val; omega)
/-- Column `j` of the third range is column `4096 + j` of the stacked axis. -/
theorem idx8_eq (r : Fin 4096) (j : Fin 2048) : idx_main_v8 (ix2 r j) = ix2 r (Cert.Spec.col 2 j) :=
  funext fun a => Fin.ext (by
    match a with
    | ⟨0, _⟩ => rfl
    | ⟨1, _⟩ => show 4096 + j.val = 2 * 2048 + j.val; omega)
/-- Column `j` of the fourth range is column `6144 + j` of the stacked axis. -/
theorem idx9_eq (r : Fin 4096) (j : Fin 2048) : idx_main_v9 (ix2 r j) = ix2 r (Cert.Spec.col 3 j) :=
  funext fun a => Fin.ext (by
    match a with
    | ⟨0, _⟩ => rfl
    | ⟨1, _⟩ => show 6144 + j.val = 3 * 2048 + j.val; omega)

/-- The forget gate's pre-activation: columns [0, 2048). -/
theorem gate_f (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v6 (F := Ideal) x0 x1 x3 x4 x5 (ix2 r j) = Cert.Spec.rawGate x0 x1 x3 x4 x5 r (Cert.Spec.col 0 j) := by
  rw [val_main_v6_apply, idx6_eq, pre_apply]
/-- The input gate's pre-activation: columns [2048, 4096). -/
theorem gate_i (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v7 (F := Ideal) x0 x1 x3 x4 x5 (ix2 r j) = Cert.Spec.rawGate x0 x1 x3 x4 x5 r (Cert.Spec.col 1 j) := by
  rw [val_main_v7_apply, idx7_eq, pre_apply]
/-- The output gate's pre-activation: columns [4096, 6144). -/
theorem gate_o (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v8 (F := Ideal) x0 x1 x3 x4 x5 (ix2 r j) = Cert.Spec.rawGate x0 x1 x3 x4 x5 r (Cert.Spec.col 2 j) := by
  rw [val_main_v8_apply, idx8_eq, pre_apply]
/-- The candidate's pre-activation: columns [6144, 8192). -/
theorem gate_g (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v9 (F := Ideal) x0 x1 x3 x4 x5 (ix2 r j) = Cert.Spec.rawGate x0 x1 x3 x4 x5 r (Cert.Spec.col 3 j) := by
  rw [val_main_v9_apply, idx9_eq, pre_apply]

/-! ## The clips are the hard sigmoid and the hard tanh -/

/-- The input gate: divide by six, add one half, clip to [0, 1]. -/
theorem act_i (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v14 (F := Ideal) x0 x1 x3 x4 x5 (ix2 r j) = Cert.Spec.hsig (Cert.Spec.rawGate x0 x1 x3 x4 x5 r (Cert.Spec.col 1 j)) := by
  rw [val_main_v14_apply, val_main_call0_v4_apply, val_main_call0_v3_apply, val_main_cst_2_apply, val_main_call0_v2_apply,
    val_main_call0_v1_apply, val_main_call0_v0_apply, val_main_cst_1_apply, val_main_v13_apply, val_main_v11_apply,
    val_main_v10_apply, val_main_cst_apply, val_main_v12_apply, val_main_cst_0_apply, gate_i]
  rfl
/-- The candidate: clip to [−1, 1]. -/
theorem act_g (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v15 (F := Ideal) x0 x1 x3 x4 x5 (ix2 r j) = Cert.Spec.htanh (Cert.Spec.rawGate x0 x1 x3 x4 x5 r (Cert.Spec.col 3 j)) := by
  rw [val_main_v15_apply, val_main_call1_v4_apply, val_main_call1_v3_apply, val_main_cst_4_apply, val_main_call1_v2_apply,
    val_main_call1_v1_apply, val_main_call1_v0_apply, val_main_cst_3_apply, gate_g]
  rfl
/-- The forget gate. -/
theorem act_f (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v21 (F := Ideal) x0 x1 x3 x4 x5 (ix2 r j) = Cert.Spec.hsig (Cert.Spec.rawGate x0 x1 x3 x4 x5 r (Cert.Spec.col 0 j)) := by
  rw [val_main_v21_apply, val_main_call2_v4_apply, val_main_call2_v3_apply, val_main_cst_8_apply, val_main_call2_v2_apply,
    val_main_call2_v1_apply, val_main_call2_v0_apply, val_main_cst_7_apply, val_main_v20_apply, val_main_v18_apply,
    val_main_v17_apply, val_main_cst_5_apply, val_main_v19_apply, val_main_cst_6_apply, gate_f]
  rfl
/-- The output gate. -/
theorem act_o (x0 x1 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v28 (F := Ideal) x0 x1 x3 x4 x5 (ix2 r j) = Cert.Spec.hsig (Cert.Spec.rawGate x0 x1 x3 x4 x5 r (Cert.Spec.col 2 j)) := by
  rw [val_main_v28_apply, val_main_call3_v4_apply, val_main_call3_v3_apply, val_main_cst_12_apply, val_main_call3_v2_apply,
    val_main_call3_v1_apply, val_main_call3_v0_apply, val_main_cst_11_apply, val_main_v27_apply, val_main_v25_apply,
    val_main_v24_apply, val_main_cst_9_apply, val_main_v26_apply, val_main_cst_10_apply, gate_o]
  rfl

/-! ## The two results -/

/-- The new cell state at `(r, j)`: forget gate times the old cell, plus input gate times candidate. -/
theorem cell_apply (x0 x1 x2 : (⟨S4096x2048, .f32⟩ : BufTy).Contents (Elt Ideal)) (x3 x4 : (⟨S8192x2048, .f32⟩ : BufTy).Contents (Elt Ideal))
    (x5 : (⟨S8192, .f32⟩ : BufTy).Contents (Elt Ideal)) (r : Fin 4096) (j : Fin 2048) :
    val_main_v23 (F := Ideal) x0 x1 x2 x3 x4 x5 (ix2 r j) = Cert.Spec.specC x0 x1 x2 x3 x4 x5 (ix2 r j) := by
  rw [val_main_v23_apply, val_main_v22_apply, val_main_v16_apply, act_f, act_i, act_g]
  rfl

/-- The reference's hidden result is the specification's: output gate times the hard tanh of the new cell state. -/
theorem ref_h (x0 x1 x2 : (⟨S4096x2048, .f32⟩ : BufTy).Contents (Elt Ideal)) (x3 x4 : (⟨S8192x2048, .f32⟩ : BufTy).Contents (Elt Ideal))
    (x5 : (⟨S8192, .f32⟩ : BufTy).Contents (Elt Ideal)) :
    val_main_v30 (F := Ideal) x0 x1 x2 x3 x4 x5 = Cert.Spec.specH x0 x1 x2 x3 x4 x5 := by
  funext i
  obtain ⟨r, j, rfl⟩ : ∃ (r : Fin 4096) (j : Fin 2048), i = ix2 r j := ⟨i 0, i 1, eq_ix2 i⟩
  rw [val_main_v30_apply, val_main_v29_apply, val_main_call4_v4_apply, val_main_call4_v3_apply, val_main_cst_14_apply,
    val_main_call4_v2_apply, val_main_call4_v1_apply, val_main_call4_v0_apply, val_main_cst_13_apply, act_o, cell_apply]
  rfl

/-- The reference's cell result is the specification's, entry by entry. -/
theorem ref_c (x0 x1 x2 : (⟨S4096x2048, .f32⟩ : BufTy).Contents (Elt Ideal)) (x3 x4 : (⟨S8192x2048, .f32⟩ : BufTy).Contents (Elt Ideal))
    (x5 : (⟨S8192, .f32⟩ : BufTy).Contents (Elt Ideal)) :
    val_main_v23 (F := Ideal) x0 x1 x2 x3 x4 x5 = Cert.Spec.specC x0 x1 x2 x3 x4 x5 := by
  funext i
  obtain ⟨r, j, rfl⟩ : ∃ (r : Fin 4096) (j : Fin 2048), i = ix2 r j := ⟨i 0, i 1, eq_ix2 i⟩
  exact cell_apply x0 x1 x2 x3 x4 x5 r j

end Cert.ReferenceIdeal.RefValue

end
-- ==== Proof.lean ====
/-
  A fused LSTM cell against its reference, over the extended reals.

  The kernel walks a grid of (batch tile, gate, reduction tile) points. For each batch tile and gate it accumulates,
  in a scratch slot, the gate's pre-activation: the input product and the hidden product, one reduction tile of the
  feature axis at a time, over zero, and then the gate's bias. At the last point of a batch tile the four slots give the
  new cell state `c₁ = hsig(f)·c₀ + hsig(i)·htanh(g)` and the new hidden state `h₁ = hsig(o)·htanh(c₁)` for the tile's rows.
  The reference forms the two whole products, adds the bias between them, splits the four gates and applies the same
  gating. Over the extended reals a sum may be regrouped and reordered freely, a sum over the feature axis is the sum
  over its eight tiles of the sums within a tile, and a change of float format is the identity; so both programs compute
  the specification `Cert.Spec.specH`, `Cert.Spec.specC` of the six argument arrays. No law used needs the inputs to
  be finite.

  The frames of the kernel (at the word-level instance and at the ideal one) come from one body obligation written
  once over any float instance: the invariant carries the scratch at contents that agree, on every slot started so far,
  with the recursion `slotAt`. The reference's frame is its generated run with the results dropped. The ideal pass
  rewrote nothing, so the kernel's idealization is its own text.
-/
import proofs.«168793_j10007273800256_1_alg».proof.Defs
import proofs.«168793_j10007273800256_1_alg».proof.Proof.Gen.Kernel
import proofs.«168793_j10007273800256_1_alg».proof.Proof.Gen.KernelIdeal
import proofs.«168793_j10007273800256_1_alg».proof.Proof.Gen.ReferenceIdeal
import proofs.«168793_j10007273800256_1_alg».proof.Proof.Gen.ReferenceIdeal.Run
import proofs.«168793_j10007273800256_1_alg».proof.Proof.Gen.ReferenceIdeal.Read
import proofs.«168793_j10007273800256_1_alg».proof.Proof.Gen.Pre_finite_inputs
import proofs.«168793_j10007273800256_1_alg».proof.Proof.KB.Body
import proofs.«168793_j10007273800256_1_alg».proof.Proof.KI.Value
import proofs.«168793_j10007273800256_1_alg».proof.Proof.RefValue

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- Both programs end with the specification's hidden and cell arrays of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.HandValue.value_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v30_eq, Cert.ReferenceIdeal.RefValue.ref_h,
      (hagree c).1, (hagree c).2.1, (hagree c).2.2.1, (hagree c).2.2.2.1, (hagree c).2.2.2.2.1, (hagree c).2.2.2.2.2]
  · rw [(h c).2.1, Cert.ReferenceIdeal.Read.val_main_v23_eq, Cert.ReferenceIdeal.RefValue.ref_c,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
